-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x131072 : Shape := ⟨2, ![2, 131072]⟩
abbrev S256x128 : Shape := ⟨2, ![256, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S8192x128 .f32) (main_arg1 : IVec S2x131072 32) (main_arg2 : FVec F S256x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S8192x128 : Shape := ⟨2, ![8192, 128]⟩
abbrev S2x131072 : Shape := ⟨2, ![2, 131072]⟩
abbrev S256x128 : Shape := ⟨2, ![256, 128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S8192x2 : Shape := ⟨2, ![8192, 2]⟩
abbrev S128x256 : Shape := ⟨2, ![128, 256]⟩
abbrev S8192x256 : Shape := ⟨2, ![8192, 256]⟩
abbrev S2048x2048 : Shape := ⟨2, ![2048, 2048]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 64
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S256x128, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S_, .f32⟩
  | .hbm, ⟨27, _⟩ => ⟨S131072, .f32⟩
  | .hbm, ⟨28, _⟩ => ⟨S8192x8192, .f32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S8192x1, .i32⟩
  | .hbm, ⟨45, _⟩ => ⟨S8192x1, .i32⟩
  | .hbm, ⟨46, _⟩ => ⟨S8192x2, .i32⟩
  | .hbm, ⟨47, _⟩ => ⟨S_, .f32⟩
  | .hbm, ⟨48, _⟩ => ⟨S8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x128, .f32⟩
  | .hbm, ⟨57, _⟩ => ⟨S8192x128, .f32⟩
  | .hbm, ⟨58, _⟩ => ⟨S8192x8192, .bf16⟩
  | .hbm, ⟨59, _⟩ => ⟨S8192x128, .bf16⟩
  | .hbm, ⟨60, _⟩ => ⟨S128x256, .f32⟩
  | .hbm, ⟨61, _⟩ => ⟨S128x256, .bf16⟩
  | .hbm, ⟨62, _⟩ => ⟨S8192x1, .f32⟩
  | .hbm, ⟨63, _⟩ => ⟨S8192x256, .f32⟩
  | .local _ .vmem, ⟨0, _⟩ => ⟨S2048x2048, .bf16⟩
  | .local _ .vmem, ⟨1, _⟩ => ⟨S2048x2048, .bf16⟩
  | .local _ .vmem, ⟨2, _⟩ => ⟨S8192x128, .bf16⟩
  | .local _ .vmem, ⟨3, _⟩ => ⟨S128x256, .bf16⟩
  | .local _ .vmem, ⟨4, _⟩ => ⟨S2048x1, .f32⟩
  | .local _ .vmem, ⟨5, _⟩ => ⟨S2048x1, .f32⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x128_0_1 : S8192x1.BroadcastsInDim S8192x128 (![0, 1] : Fin 2 → Fin S8192x128.rank)
  bitsLt_bf16_f32 : FTy.bits .bf16 < FTy.bits .f32
  transposes_S256x128_S128x256_1_0 : S256x128.Transposes [1, 0] S128x256
  shapeCasts_S8192_S8192x1 : S8192.ShapeCasts S8192x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  scatter_S8192x8192_S131072x2_S131072_n_01_01_1_wf : ScatterDims.WF S8192x8192 S131072x2 S131072 [] [0, 1] [0, 1] 1
  scatter_S8192x8192_S8192x2_S8192_n_01_01_1_wf : ScatterDims.WF S8192x8192 S8192x2 S8192 [] [0, 1] [0, 1] 1
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .bf16 = 32 ∨ (Rect.block (s := S8192x8192) S2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S8192x256.size a
  hwx0_4 : ∀ i : grid0.Coords, EltTy.bits .f32 = 32 ∨ (Rect.block (s := S8192x256) S2048x256.size (cc0_transform_4 i) (hinb0_4 i)).WholeWords (EltTy.packing .f32)

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_v42) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S2x131072 : Shape := ⟨2, ![2, 131072]⟩
abbrev S256x128 : Shape := ⟨2, ![256, 128]⟩
abbrev S1x131072 : Shape := ⟨2, ![1, 131072]⟩
abbrev S131072 : Shape := ⟨1, ![131072]⟩
abbrev S_ : Shape := ⟨0, ![]⟩
abbrev S8192x8192 : Shape := ⟨2, ![8192, 8192]⟩
abbrev S131072x1 : Shape := ⟨2, ![131072, 1]⟩
abbrev S131072x2 : Shape := ⟨2, ![131072, 2]⟩
abbrev S8192 : Shape := ⟨1, ![8192]⟩
abbrev S8192x1 : Shape := ⟨2, ![8192, 1]⟩
abbrev S1x8192 : Shape := ⟨2, ![1, 8192]⟩
abbrev S128x256 : Shape := ⟨2, ![128, 256]⟩
abbrev S8192x256 : Shape := ⟨2, ![8192, 256]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x131072, .i32⟩
  | .hbm, ⟨2, _⟩ => ⟨S256x128, .f32⟩
  | .hbm, ⟨3, _⟩ => ⟨S1x131072, .i32⟩
  | .hbm, ⟨4, _⟩ => ⟨S131072, .i32⟩
  | .hbm, ⟨5, _⟩ => ⟨S1x131072, .i32⟩
  | .hbm, ⟨6, _⟩ => ⟨S131072, .i32⟩
  | .hbm, ⟨7, _⟩ => ⟨S_, .f32⟩
  | .hbm, ⟨8, _⟩ => ⟨S8192x8192, .f32⟩
  | .hbm, ⟨9, _⟩ => ⟨S_, .i32⟩
  | .hbm, ⟨10, _⟩ => ⟨S131072, .i32⟩
  | .hbm, ⟨11, _⟩ => ⟨S131072, .i1⟩
  | .hbm, ⟨12, _⟩ => ⟨S_, .i32⟩
  | .hbm, ⟨13, _⟩ => ⟨S131072, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1, .i32⟩
  | .hbm, ⟨25, _⟩ => ⟨S131072x2, .i32⟩
  | .hbm, ⟨26, _⟩ => ⟨S_, .f32⟩
  | .hbm, ⟨27, _⟩ => ⟨S131072, .f32⟩
  | .hbm, ⟨28, _⟩ => ⟨S8192x8192, .f32⟩
  | .hbm, ⟨29, _⟩ => ⟨S8192x8192, .i32⟩
  | .hbm, ⟨30, _⟩ => ⟨S8192x8192, .i32⟩
  | .hbm, ⟨31, _⟩ => ⟨S_, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192x1, .f32⟩
  | .hbm, ⟨43, _⟩ => ⟨S8192x8192, .f32⟩
  | .hbm, ⟨44, _⟩ => ⟨S8192x8192, .f32⟩
  | .hbm, ⟨45, _⟩ => ⟨S1x8192, .f32⟩
  | .hbm, ⟨46, _⟩ => ⟨S8192x8192, .f32⟩
  | .hbm, ⟨47, _⟩ => ⟨S8192x8192, .f32⟩
  | .hbm, ⟨48, _⟩ => ⟨S8192x128, .f32⟩
  | .hbm, ⟨49, _⟩ => ⟨S128x256, .f32⟩
  | .hbm, ⟨50, _⟩ => ⟨S8192x256, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S2x131072_S1x131072_0_0 : S2x131072.Slices ![0, 0] S1x131072
  shapeCasts_S1x131072_S131072 : S1x131072.ShapeCasts S131072
  slices_S2x131072_S1x131072_1_0 : S2x131072.Slices ![1, 0] S1x131072
  bcast_S_S8192x8192 : S_.BroadcastsInDim S8192x8192 (![] : Fin 0 → Fin S8192x8192.rank)
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  transposes_S256x128_S128x256_1_0 : S256x128.Transposes [1, 0] S128x256
  scatter_S8192x8192_S131072x2_S131072_n_01_01_1_wf : ScatterDims.WF S8192x8192 S131072x2 S131072 [] [0, 1] [0, 1] 1
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []

variable [Facts₀]

def scatter_S8192x8192_S131072x2_S131072_n_01_01_1 : ScatterDims S8192x8192 S131072x2 S131072 where
  updateWindowDims := []
  insertedWindowDims := [0, 1]
  scatterDimsToOperandDims := [0, 1]
  indexVectorDim := 1
  wf := scatter_S8192x8192_S131072x2_S131072_n_01_01_1_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf

class Facts : Prop extends Facts₀ where

variable [Facts]
-- ==== Proof.GcnSpec.lean ====
/-
  The graph layer as one function of its arrays, in the two arrangements the programs compute, and the law that joins them.

  With `A` the 0/1 adjacency matrix, `Ã = A + I`, `deg r = ∑ j, Ã r j` and `s r = (deg r) ^ (-1/2)`, the layer is
  `out r h = ∑ d, agg r d · W h d` with `agg r d = ∑ j, (s r · Ã r j · s j) · x j d`. One program scales the rows of `x`
  by `s` first, sums against `Ã` tile by tile along `j`, and scales the result's rows by `s` afterwards:
  `agg r d = (∑ j, Ã r j · (x j d · s j)) · s r`. The two agree when every number involved is a real: a power of a real to
  a real exponent is a real, so `s` is real as soon as `Ã` is, and then `s r` moves across the finite sum.
-/
import Idealize.ShloMosaic.PureOps.Ideal
import Idealize.ShloMosaic.PureOps.Ideal.Laws
import Idealize.ShloMosaic.Lib.IdealHost

noncomputable section

namespace Cert.GcnSpec

open Idealize.ShloMosaic

/-- The adjacency matrix with self-loops. -/
def adjI (A : Fin 8192 → Fin 8192 → EReal) (r j : Fin 8192) : EReal := A r j + (if r = j then (1 : EReal) else 0)

/-- The degree of node `r`, summed from the float zero. -/
def deg (A : Fin 8192 → Fin 8192 → EReal) (r : Fin 8192) : EReal :=
  Ideal.ofBits .f32 0x00000000#32 + ∑ j : Fin 8192, adjI A r j

/-- The degree to the power -1/2. -/
def dinv (A : Fin 8192 → Fin 8192 → EReal) (r : Fin 8192) : EReal :=
  Ideal.pow (deg A r) (Ideal.ofBits .f32 0xBF000000#32)

/-- The aggregation with the normalised matrix formed first. -/
def aggRef (A : Fin 8192 → Fin 8192 → EReal) (x : Fin 8192 → Fin 128 → EReal) (r : Fin 8192) (d : Fin 128) : EReal :=
  ∑ j : Fin 8192, ((dinv A r * adjI A r j) * dinv A j) * x j d

/-- The aggregation with the rows of `x` scaled first and the result's rows scaled last. -/
def aggKer (A : Fin 8192 → Fin 8192 → EReal) (x : Fin 8192 → Fin 128 → EReal) (r : Fin 8192) (d : Fin 128) : EReal :=
  (∑ j : Fin 8192, adjI A r j * (x j d * dinv A j)) * dinv A r

/-- The layer's output from an aggregation. -/
def outOf (agg : Fin 8192 → Fin 128 → EReal) (W : Fin 256 → Fin 128 → EReal) (r : Fin 8192) (h : Fin 256) : EReal :=
  ∑ d : Fin 128, agg r d * W h d

/-- A finite sum of reals, read in the extended reals, is the extended real of the real sum. -/
theorem coe_sum {ι : Type*} (t : Finset ι) (f : ι → ℝ) :
    (∑ i ∈ t, (f i : EReal)) = ((∑ i ∈ t, f i : ℝ) : EReal) := by
  classical
  induction t using Finset.induction_on with
  | empty => simp
  | insert a s ha ih => rw [Finset.sum_insert ha, Finset.sum_insert ha, ih, EReal.coe_add]

/-- A sum over `n * m` consecutive positions is the sum over its `m` consecutive tiles of `n`. -/
theorem sum_range_mul_tiles {M : Type*} [AddCommMonoid M] (f : ℕ → M) (n m : ℕ) :
    (∑ s ∈ Finset.range m, ∑ k ∈ Finset.range n, f (n * s + k)) = ∑ j ∈ Finset.range (n * m), f j := by
  induction m with
  | zero => simp
  | succ m ih => rw [Finset.sum_range_succ, ih, Nat.mul_succ, Finset.sum_range_add]

/-- The float pattern `0xBF000000` is the real -1/2: sign set, exponent field 126, no fraction. -/
theorem neg_half_val : Ideal.ofBits .f32 0xBF000000#32 = ((-(1/2 : ℝ)) : EReal) := by
  simp [Ideal.ofBits, Ideal.ieee, -EReal.coe_mul, -EReal.coe_neg]; norm_num

/-- The float pattern of -1/2 is a real number. -/
theorem neg_half_real : ∃ e : ℝ, Ideal.ofBits .f32 0xBF000000#32 = (e : EReal) :=
  ⟨_, neg_half_val⟩

/-- Over a 0/1 adjacency every entry of `Ã` is a real: a 0 or 1 plus a 0 or 1. -/
theorem adjI_real (A : Fin 8192 → Fin 8192 → EReal) (hA : ∀ r j, A r j = 0 ∨ A r j = 1) (r j : Fin 8192) :
    ∃ e : ℝ, adjI A r j = (e : EReal) := by
  have h1 : ∃ a : ℝ, A r j = (a : EReal) := by
    rcases hA r j with h | h
    · exact ⟨0, by rw [h, EReal.coe_zero]⟩
    · exact ⟨1, by rw [h, EReal.coe_one]⟩
  have h2 : ∃ b : ℝ, (if r = j then (1 : EReal) else 0) = (b : EReal) := by
    by_cases hrj : r = j
    · exact ⟨1, by rw [if_pos hrj, EReal.coe_one]⟩
    · exact ⟨0, by rw [if_neg hrj, EReal.coe_zero]⟩
  obtain ⟨a, ha⟩ := h1
  obtain ⟨b, hb⟩ := h2
  exact ⟨a + b, by unfold adjI; rw [ha, hb, EReal.coe_add]⟩

/-- Over a 0/1 adjacency the degree is a real: the float zero is the real 0 and a finite sum of reals is a real. -/
theorem deg_real (A : Fin 8192 → Fin 8192 → EReal) (hA : ∀ r j, A r j = 0 ∨ A r j = 1) (r : Fin 8192) :
    ∃ e : ℝ, deg A r = (e : EReal) := by
  choose a ha using adjI_real A hA r
  refine ⟨∑ j, a j, ?_⟩
  unfold deg
  rw [Ideal.ofBits_zero_f32, zero_add, ← coe_sum]
  exact Finset.sum_congr rfl (fun j _ => ha j)

/-- With a 0/1 adjacency the scale `s r` is a real number: a real to a real power is a real, whatever the base's sign. -/
theorem dinv_real (A : Fin 8192 → Fin 8192 → EReal) (hA : ∀ r j, A r j = 0 ∨ A r j = 1) (r : Fin 8192) :
    ∃ e : ℝ, dinv A r = (e : EReal) := by
  obtain ⟨g, hg⟩ := deg_real A hA r
  obtain ⟨e, he⟩ := neg_half_real
  exact ⟨Real.rpow g e, by unfold dinv; rw [hg, he, Ideal.pow_coe_coe]⟩

/-- THE LAW: over a 0/1 adjacency and a real `x` the two arrangements of the aggregation agree. Every factor is a real,
    so both sides are real sums read in the extended reals; there `s r` moves into the sum and each term is the same
    product of four reals in another order. -/
theorem aggKer_eq_aggRef (A : Fin 8192 → Fin 8192 → EReal) (x : Fin 8192 → Fin 128 → EReal)
    (hA : ∀ r j, A r j = 0 ∨ A r j = 1) (hx : ∀ j d, ∃ e : ℝ, x j d = (e : EReal)) (r : Fin 8192) (d : Fin 128) :
    aggKer A x r d = aggRef A x r d := by
  choose a ha using adjI_real A hA r
  choose s hs using dinv_real A hA
  choose xr hxr using fun j => hx j d
  have hL : (∑ j : Fin 8192, adjI A r j * (x j d * dinv A j))
      = ((∑ j : Fin 8192, a j * (xr j * s j) : ℝ) : EReal) := by
    rw [← coe_sum]
    refine Finset.sum_congr rfl (fun j _ => ?_)
    rw [ha j, hxr j, hs j, EReal.coe_mul, EReal.coe_mul]
  have hR : (∑ j : Fin 8192, ((dinv A r * adjI A r j) * dinv A j) * x j d)
      = ((∑ j : Fin 8192, ((s r * a j) * s j) * xr j : ℝ) : EReal) := by
    rw [← coe_sum]
    refine Finset.sum_congr rfl (fun j _ => ?_)
    rw [ha j, hxr j, hs j, hs r, EReal.coe_mul, EReal.coe_mul, EReal.coe_mul]
  unfold aggKer aggRef
  rw [hL, hR, hs r, ← EReal.coe_mul, Finset.sum_mul]
  congr 1
  refine Finset.sum_congr rfl (fun j _ => ?_)
  ring

/-- A sum over 8192 positions is the sum over its four consecutive tiles of 2048. -/
theorem tile_sum (f : ℕ → EReal) :
    (∑ s ∈ Finset.range 4, ∑ k : Fin 2048, f (2048 * s + k.val)) = ∑ j : Fin 8192, f j.val := by
  have h : (∑ s ∈ Finset.range 4, ∑ k ∈ Finset.range 2048, f (2048 * s + k)) = ∑ j ∈ Finset.range 8192, f j :=
    sum_range_mul_tiles f 2048 4
  rw [Fin.sum_univ_eq_sum_range f 8192, ← h]
  exact Finset.sum_congr rfl (fun s _ => Fin.sum_univ_eq_sum_range (fun k => f (2048 * s + k)) 2048)

end Cert.GcnSpec

end
-- ==== Proof.PreReal.lean ====
/-
  The precondition, decoded: under it every entry of the first argument is a real number.

  The precondition is the conjunction of two tests, one for the first and one for the third argument, each of the form
  "every entry's absolute value is below the float +∞". The float +∞ is the top of the extended reals, and the absolute
  value of an extended real `x` is `max x (-x)`, which is the top for both infinities; so an entry that passes the test
  is neither infinity, that is, it is a real.
-/
import proofs.«130447_j9328668967304_1_alg».proof.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

namespace Cert.PreReal

open Idealize.ShloMosaic Idealize.ShloMosaic.ValueIdx

variable [hP : Cert.Pre_finite_inputs.Facts]

/-- The scalar shape has one index. -/
instance : Subsingleton Cert.Pre_finite_inputs.S_.Idx := ⟨fun a b => funext fun d => d.elim0⟩

/-- The float pattern `0x7F800000` is +∞, the top of the extended reals. -/
theorem ofBits_inf_f32 : Ideal.ofBits .f32 0x7F800000#32 = (⊤ : EReal) := by
  simp [Ideal.ofBits, Ideal.ieee]

/-- An extended real whose absolute value `max x (-x)` tests below +∞ is a real: at either infinity the absolute value
    is the top, which is not below itself. -/
theorem real_of_abs_lt_inf (x : EReal)
    (hx : Ideal.cmp .olt (max x (-x)) (Ideal.ofBits .f32 0x7F800000#32) = 1#1) : ∃ e : ℝ, x = (e : EReal) := by
  rw [ofBits_inf_f32] at hx
  induction x using EReal.rec with
  | bot => simp [Ideal.cmp] at hx
  | coe r => exact ⟨r, rfl⟩
  | top => simp [Ideal.cmp] at hx

/-- Under the precondition every entry of the first argument is a real number. -/
theorem x_real (a0 : FVec Ideal Cert.Pre_finite_inputs.S8192x128 .f32) (a1 : IVec Cert.Pre_finite_inputs.S2x131072 32)
    (a2 : FVec Ideal Cert.Pre_finite_inputs.S256x128 .f32)
    (h : Cert.Pre_finite_inputs.fn (F := Ideal) a0 a1 a2 = fun _ => 1#1) (j : Fin 8192) (d : Fin 128) :
    ∃ e : ℝ, a0 (ix2 j d) = (e : EReal) := by
  have h0 := congrFun h ValueIdx.ix0
  dsimp only [Cert.Pre_finite_inputs.fn] at h0
  obtain ⟨h1, _⟩ := IntOp.andi_eq_one.1 h0
  have h2 := Host.reduce_andi_all _ _ _ _ _ h1 (ix2 j d)
  rw [cmpf_apply, broadcastInDim_scalar_apply] at h2
  exact real_of_abs_lt_inf _ h2

end Cert.PreReal

end
-- ==== Proof.Adjacency.lean ====
/-
  The adjacency matrix of the graph layer, entry by entry.

  Writing ones into a zero matrix at arbitrary positions leaves a matrix whose entries are zero or one, whatever the
  positions are and however often they repeat. Adding one at each diagonal position (r, r), once per r, is adding
  the identity matrix; so is adding the matrix that compares the row number with the column number.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Contract
import Idealize.ShloMosaic.PureOps.Ideal.Laws

noncomputable section

namespace Cert.Adjacency

open Idealize.ShloMosaic Idealize.ShloMosaic.ValueIdx

abbrev S_ : Shape := ⟨0, ![]⟩
abbrev SN : Shape := ⟨1, ![8192]⟩
abbrev SNx1 : Shape := ⟨2, ![8192, 1]⟩
abbrev SNx2 : Shape := ⟨2, ![8192, 2]⟩
abbrev SNxN : Shape := ⟨2, ![8192, 8192]⟩

/-- Folding "replace one entry by the second constant, or change nothing" over any list keeps every entry among
    the two constants. -/
theorem foldl_set_mem {s : Shape} {β : Type} (res : β → Option s.Idx) (c0 c1 : EReal) (val : β → EReal)
    (hval : ∀ n, val n = c1) (l : List β) :
    ∀ (r : s.Idx → EReal), (∀ i, r i = c0 ∨ r i = c1) →
      ∀ i, (l.foldl (fun r n =>
        match res n with
        | some i => fun i' => if i' = i then (fun _ b => b) (r i) (val n) else r i'
        | none => r) r) i = c0 ∨ (l.foldl (fun r n =>
        match res n with
        | some i => fun i' => if i' = i then (fun _ b => b) (r i) (val n) else r i'
        | none => r) r) i = c1 := by
  induction l with
  | nil => intro r hr i; simpa using hr i
  | cons n l ih =>
    intro r hr i
    rw [List.foldl_cons]
    apply ih
    intro i'
    cases res n with
    | none => exact hr i'
    | some k =>
      show (if i' = k then val n else r i') = c0 ∨ (if i' = k then val n else r i') = c1
      by_cases h : i' = k
      · rw [if_pos h]; right; exact hval n
      · rw [if_neg h]; exact hr i'

/-- A set-scatter of one constant into a constant array: every entry of the result is one of the two constants. -/
theorem scatter_set_mem {s si u : Shape} {w : Nat} (d : ScatterDims s si u) (x : s.Idx → EReal) (idx : IVec si w)
    (upd : u.Idx → EReal) (c0 c1 : EReal) (hx : ∀ i, x i = c0) (hu : ∀ j, upd j = c1) (i : s.Idx) :
    Host.scatter d (fun _ b => b) x idx upd i = c0 ∨ Host.scatter d (fun _ b => b) x idx upd i = c1 := by
  unfold Host.scatter
  exact foldl_set_mem (fun n => d.resultIdx? (u.rowMajor.symm n) idx) c0 c1 (fun n => upd (u.rowMajor.symm n))
    (fun _ => hu _) (List.finRange u.numel) x (fun i => Or.inl (hx i)) i

/-- A row number below 8192, wrapped to a 32-bit word and read signed, is itself. -/
theorem toInt_ofNat_8192 (j : Fin 8192) : (BitVec.ofNat 32 j.val).toInt = (j.val : Int) := by
  have hj := j.isLt
  rw [BitVec.toInt_eq_toNat_cond, BitVec.toNat_ofNat, Nat.mod_eq_of_lt (by omega)]
  rw [if_pos (by omega)]

/-- The wrapped row number: a row number below 8192 is not negative as a signed word, so the wrap leaves it alone. -/
theorem wrap_apply (hb0 : S_.BroadcastsInDim SN (![] : Fin 0 → Fin SN.rank)) (j : Fin 8192) :
    select (cmpi .slt (iotaInDim SN 32 0) (broadcastInDim SN ![] hb0 (constantI S_ 32 0#32)))
      (addi (iotaInDim SN 32 0) (broadcastInDim SN ![] hb0 (constantI S_ 32 8192#32))) (iotaInDim SN 32 0) (ix1 j)
      = BitVec.ofNat 32 j.val := by
  have h0 : broadcastInDim SN ![] hb0 (constantI S_ 32 0#32) (ix1 j) = 0#32 := broadcastInDim_scalar_apply hb0 _ _
  show Scalar.select (IntOp.cmpi .slt (BitVec.ofNat 32 j.val) (broadcastInDim SN ![] hb0 (constantI S_ 32 0#32) (ix1 j)))
    _ (BitVec.ofNat 32 j.val) = _
  rw [h0]
  have hs : (BitVec.ofNat 32 j.val).slt 0#32 = false := by
    rw [BitVec.slt, toInt_ofNat_8192]
    simp
  show Scalar.select (BitVec.ofBool ((BitVec.ofNat 32 j.val).slt 0#32)) _ (BitVec.ofNat 32 j.val) = _
  rw [hs]
  rfl

/-- The wrapped row numbers laid as a column: row j of the column holds the word of j. -/
theorem col_apply (hb0 : S_.BroadcastsInDim SN (![] : Fin 0 → Fin SN.rank))
    (hb1 : SN.BroadcastsInDim SNx1 (![0] : Fin 1 → Fin SNx1.rank)) (j : Fin 8192) :
    broadcastInDim SNx1 ![0] hb1
          (select (cmpi .slt (iotaInDim SN 32 0) (broadcastInDim SN ![] hb0 (constantI S_ 32 0#32)))
            (addi (iotaInDim SN 32 0) (broadcastInDim SN ![] hb0 (constantI S_ 32 8192#32))) (iotaInDim SN 32 0))
          (ix2 j (0 : Fin 1)) = BitVec.ofNat 32 j.val := by
  rw [broadcastInDim_apply ![0] hb1 _ (ix2 j (0 : Fin 1)) (ix1 j) (by
    intro a
    match a with
    | ⟨0, _⟩ => rfl)]
  exact wrap_apply hb0 j

/-- The row of scatter positions (j, j): the wrapped row number, laid as a column, beside itself. -/
theorem diag_idx_apply (hb0 : S_.BroadcastsInDim SN (![] : Fin 0 → Fin SN.rank))
    (hb1 : SN.BroadcastsInDim SNx1 (![0] : Fin 1 → Fin SNx1.rank))
    (hc : Shape.Concatenates [SNx1, SNx1] SNx2 1) (j : Fin 8192) (c : Fin 2) :
    concatenate SNx2 1
      [⟨SNx1, broadcastInDim SNx1 ![0] hb1
          (select (cmpi .slt (iotaInDim SN 32 0) (broadcastInDim SN ![] hb0 (constantI S_ 32 0#32)))
            (addi (iotaInDim SN 32 0) (broadcastInDim SN ![] hb0 (constantI S_ 32 8192#32))) (iotaInDim SN 32 0))⟩,
       ⟨SNx1, broadcastInDim SNx1 ![0] hb1
          (select (cmpi .slt (iotaInDim SN 32 0) (broadcastInDim SN ![] hb0 (constantI S_ 32 0#32)))
            (addi (iotaInDim SN 32 0) (broadcastInDim SN ![] hb0 (constantI S_ 32 8192#32))) (iotaInDim SN 32 0))⟩] hc
      (ix2 j c) = BitVec.ofNat 32 j.val := by
  match c with
  | ⟨0, _⟩ =>
    -- the left column
    rw [concatenate_pair_apply_left (1 : Fin SNx2.rank) _ _ hc (ix2 j (⟨0, by omega⟩ : Fin 2)) rfl (ix2 j (0 : Fin 1)) (by
      intro b
      match b with
      | ⟨0, _⟩ => rfl
      | ⟨1, _⟩ => rfl)]
    exact col_apply hb0 hb1 j
  | ⟨1, _⟩ =>
    -- the right column, one place further along the second axis
    rw [concatenate_pair_apply_right (1 : Fin SNx2.rank) _ _ hc (ix2 j (⟨1, by omega⟩ : Fin 2)) rfl rfl (ix2 j (0 : Fin 1)) (by
      intro b hb
      match b, hb with
      | ⟨0, _⟩, _ => rfl
      | ⟨1, _⟩, hb => exact absurd rfl hb) (by rfl)]
    exact col_apply hb0 hb1 j

/-- The dimension numbers of the diagonal scatter: no window axes, both operand axes inserted and both scattered. -/
abbrev diagDims (wf : ScatterDims.WF SNxN SNx2 SN [] [0, 1] [0, 1] 1) : ScatterDims SNxN SNx2 SN :=
  ⟨[], [0, 1], [0, 1], 1, wf⟩

/-- A one-coordinate index has that coordinate on its only axis. -/
theorem ix1_val {n : Nat} (k : Fin n) (x : Fin 1) : (ix1 k x).val = k.val := by
  match x with
  | ⟨0, _⟩ => rfl

/-- Update number k reads component c of its position at entry (k, c) of the position array. -/
theorem siIdx_diag (wf : ScatterDims.WF SNxN SNx2 SN [] [0, 1] [0, 1] 1) (k : Fin 8192)
    (c : Fin (diagDims wf).scatterDimsToOperandDims.length) :
    (diagDims wf).siIdx (ix1 k) c = ix2 k (⟨c.val, c.isLt⟩ : Fin 2) := by
  funext b
  match b with
  | ⟨0, _⟩ =>
    apply Fin.ext
    unfold ScatterDims.siIdx
    rw [dif_neg (by show ¬ (0 : Nat) = 1; decide)]
    unfold ScatterDims.siCoord
    simp only [Fin.coe_cast]
    exact ix1_val k _
  | ⟨1, _⟩ =>
    apply Fin.ext
    unfold ScatterDims.siIdx
    rw [dif_pos rfl]

/-- Update number k starts at k on both operand axes: the position word is the row number, read signed. -/
theorem start_diag (wf : ScatterDims.WF SNxN SNx2 SN [] [0, 1] [0, 1] 1) (idx : IVec SNx2 32)
    (hidx : ∀ (j : Fin 8192) (c : Fin 2), idx (ix2 j c) = BitVec.ofNat 32 j.val) (k : Fin 8192) (a : Fin 2) :
    (diagDims wf).start (ix1 k) idx a = (k.val : Int) := by
  unfold ScatterDims.start
  have ha : a ∈ ([0, 1] : List (Fin 2)) := by
    match a with
    | ⟨0, _⟩ => simp
    | ⟨1, _⟩ => simp
  rw [dif_pos ha, siIdx_diag, hidx, toInt_ofNat_8192]

/-- Both operand axes are inserted window axes, so the window coordinate is zero on each. -/
theorem window_diag (wf : ScatterDims.WF SNxN SNx2 SN [] [0, 1] [0, 1] 1) (k : Fin 8192) (a : Fin 2) :
    (diagDims wf).window (ix1 k) a = 0 := by
  unfold ScatterDims.window
  have hk : (diagDims wf).sKept = [] := by show SNxN.kept [0, 1] = []; decide
  rw [dif_neg (by rw [hk]; simp)]

/-- Update number k lands on the diagonal entry (k, k), which is inside the matrix. -/
theorem resultIdx_diag (wf : ScatterDims.WF SNxN SNx2 SN [] [0, 1] [0, 1] 1) (idx : IVec SNx2 32)
    (hidx : ∀ (j : Fin 8192) (c : Fin 2), idx (ix2 j c) = BitVec.ofNat 32 j.val) (k : Fin 8192) :
    (diagDims wf).resultIdx? (ix1 k) idx = some (ix2 k k) := by
  have hk := k.isLt
  unfold ScatterDims.resultIdx?
  rw [dif_pos (by
    intro a
    rw [start_diag wf idx hidx k a, window_diag wf k a]
    match a with
    | ⟨0, _⟩ => exact ⟨by omega, by show (k.val : Int) + ((0 : Nat) : Int) < ((8192 : Nat) : Int); omega⟩
    | ⟨1, _⟩ => exact ⟨by omega, by show (k.val : Int) + ((0 : Nat) : Int) < ((8192 : Nat) : Int); omega⟩)]
  congr 1
  funext a
  apply Fin.ext
  simp only [start_diag wf idx hidx k a, window_diag wf k a]
  match a with
  | ⟨0, _⟩ => show ((k.val : Int) + ((0 : Nat) : Int)).toNat = k.val; omega
  | ⟨1, _⟩ => show ((k.val : Int) + ((0 : Nat) : Int)).toNat = k.val; omega

/-- Adding one at every diagonal position, once each, adds the identity matrix. -/
theorem scatterAdd_diag (d : ScatterDims SNxN SNx2 SN) (h1 : d.updateWindowDims = []) (h2 : d.insertedWindowDims = [0, 1])
    (h3 : d.scatterDimsToOperandDims = [0, 1]) (h4 : d.indexVectorDim = 1)
    (x : FVec Ideal SNxN .f32) (idx : IVec SNx2 32) (hidx : ∀ (j : Fin 8192) (c : Fin 2), idx (ix2 j c) = BitVec.ofNat 32 j.val)
    (upd : FVec Ideal SN .f32) (hupd : ∀ j, upd j = 1) (r c : Fin 8192) :
    Host.scatterAdd d x idx upd (ix2 r c) = x (ix2 r c) + (if r = c then (1 : EReal) else 0) := by
  obtain ⟨uw, iw, sd, iv, wf⟩ := d
  simp only at h1 h2 h3 h4
  subst h1 h2 h3 h4
  -- the entry plus the sum of the updates that land on it
  show x (ix2 r c) + ∑ j ∈ Finset.univ.filter (fun j => (diagDims wf).resultIdx? j idx = some (ix2 r c)), upd j = _
  congr 1
  by_cases h : r = c
  · -- on the diagonal exactly one update lands, number r
    subst h
    rw [if_pos rfl, Finset.sum_eq_single (ix1 r), hupd]
    · intro j hj hne
      exfalso
      obtain ⟨k, rfl⟩ : ∃ k : Fin 8192, j = ix1 k := ⟨j 0, eq_ix1 j⟩
      rw [Finset.mem_filter, resultIdx_diag wf idx hidx k] at hj
      have h0 : k = r := congrFun (Option.some.inj hj.2) ⟨0, Nat.zero_lt_two⟩
      exact hne (by rw [h0])
    · intro hn
      exfalso
      apply hn
      rw [Finset.mem_filter, resultIdx_diag wf idx hidx r]
      exact ⟨Finset.mem_univ _, rfl⟩
  · -- off the diagonal none does
    rw [if_neg h]
    apply Finset.sum_eq_zero
    intro j hj
    exfalso
    obtain ⟨k, rfl⟩ : ∃ k : Fin 8192, j = ix1 k := ⟨j 0, eq_ix1 j⟩
    rw [Finset.mem_filter, resultIdx_diag wf idx hidx k] at hj
    have h0 : k = r := congrFun (Option.some.inj hj.2) ⟨0, Nat.zero_lt_two⟩
    have h1 : k = c := congrFun (Option.some.inj hj.2) ⟨1, Nat.one_lt_two⟩
    exact h (h0.symm.trans h1)

/-- Two row numbers below 8192 that wrap to the same 32-bit word are equal. -/
theorem ofNat_inj_8192 (r c : Fin 8192) : BitVec.ofNat 32 r.val = BitVec.ofNat 32 c.val ↔ r = c := by
  constructor
  · intro h
    have h' := congrArg BitVec.toNat h
    rw [BitVec.toNat_ofNat, BitVec.toNat_ofNat] at h'
    have hr := r.isLt; have hc := c.isLt
    apply Fin.ext
    rw [Nat.mod_eq_of_lt (by omega), Nat.mod_eq_of_lt (by omega)] at h'
    exact h'
  · intro h; rw [h]

/-- The matrix that compares the row number with the column number is the identity matrix. -/
theorem eye_apply (hb : S_.BroadcastsInDim SNxN (![] : Fin 0 → Fin SNxN.rank)) (r c : Fin 8192) :
    uitofp (F := Ideal) .f32
        (cmpi .eq (addi (iotaInDim SNxN 32 0) (broadcastInDim SNxN ![] hb (constantI S_ 32 0#32))) (iotaInDim SNxN 32 1))
        (ix2 r c) = (if r = c then (1 : EReal) else 0) := by
  -- the broadcast zero, read at the entry
  have h0 : broadcastInDim SNxN ![] hb (constantI S_ 32 0#32) (ix2 r c) = 0#32 := broadcastInDim_scalar_apply hb _ _
  show (((IntOp.cmpi .eq (IntOp.addi (BitVec.ofNat 32 r.val) (broadcastInDim SNxN ![] hb (constantI S_ 32 0#32) (ix2 r c)))
      (BitVec.ofNat 32 c.val)).toNat : ℝ) : EReal) = _
  rw [h0]
  show (((BitVec.ofBool (BitVec.ofNat 32 r.val + 0#32 == BitVec.ofNat 32 c.val)).toNat : ℝ) : EReal) = _
  rw [BitVec.add_zero]
  by_cases h : r = c
  · rw [if_pos h, h]; simp
  · rw [if_neg h]
    have hne : BitVec.ofNat 32 r.val ≠ BitVec.ofNat 32 c.val := fun e => h ((ofNat_inj_8192 r c).1 e)
    have : (BitVec.ofNat 32 r.val == BitVec.ofNat 32 c.val) = false := by simpa using hne
    rw [this]; simp

end Cert.Adjacency

end
-- ==== Proof.RefValue.lean ====
/-
  The reference program's result, entry by entry, as the graph layer's specification.

  The reference builds the 0/1 adjacency `A` by writing ones into a zero matrix, adds the matrix that compares row and
  column numbers (the identity), sums each row from zero to get the degree, raises it to -1/2, scales rows and columns of
  `A + I`, multiplies by `x`, and multiplies by the transposed weight. Read at (r, h) that is
  `∑ d, (∑ j, ((s r · Ã r j) · s j) · x j d) · W h d`.
-/
import proofs.«130447_j9328668967304_1_alg».proof.Proof.Gen.ReferenceIdeal.Read
import proofs.«130447_j9328668967304_1_alg».proof.Proof.Adjacency
import proofs.«130447_j9328668967304_1_alg».proof.Proof.GcnSpec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.GcnSpec

/-- The 0/1 adjacency the reference scatters, as a matrix over row and column numbers. -/
def adj0 (x1 : (⟨S2x131072, .i32⟩ : BufTy).Contents (Elt Ideal)) (r j : Fin 8192) : EReal :=
  val_main_v19 (F := Ideal) x1 (ix2 r j)

/-- Its entries are zero or one. -/
theorem adj0_mem (x1 : (⟨S2x131072, .i32⟩ : BufTy).Contents (Elt Ideal)) (r j : Fin 8192) :
    adj0 x1 r j = 0 ∨ adj0 x1 r j = 1 := by
  unfold adj0 val_main_v19
  have h := Cert.Adjacency.scatter_set_mem scatter_S8192x8192_S131072x2_S131072_n_01_01_1
    (val_main_v4 (F := Ideal)) (val_main_v17 (F := Ideal) x1) (val_main_v18 (F := Ideal))
    (Ideal.ofBits .f32 0x00000000#32) (Ideal.ofBits .f32 0x3F800000#32)
    (fun i => by rw [val_main_v4_apply, val_main_cst_apply, Ideal.ofBits_def])
    (fun j => by rw [val_main_v18_apply, val_main_cst_3_apply, Ideal.ofBits_def]) (ix2 r j)
  rw [Ideal.ofBits_zero_f32, Ideal.ofBits_one_f32] at h
  exact h

/-- The matrix that compares row and column numbers, read at an entry, is the identity matrix. -/
theorem v25_apply (r j : Fin 8192) :
    val_main_v25 (F := Ideal) (ix2 r j) = (if r = j then (1 : EReal) else 0) := by
  unfold val_main_v25 val_main_v24 val_main_v23 val_main_v22 val_main_v21 val_main_v20 val_main_c_4
  exact Cert.Adjacency.eye_apply _ r j

/-- The adjacency with self-loops, as the reference forms it. -/
theorem v26_apply (x1 : (⟨S2x131072, .i32⟩ : BufTy).Contents (Elt Ideal)) (r j : Fin 8192) :
    val_main_v26 (F := Ideal) x1 (ix2 r j) = adjI (adj0 x1) r j := by
  rw [val_main_v26_apply, Ideal.addf_def, v25_apply]
  rfl

/-- The row sum's k-th term sits at entry (r, k). -/
theorem idx27 (r k : Fin 8192) : idx_main_v27 (ix1 r) k = ix2 r k :=
  funext fun a => Fin.ext (by match a with | ⟨0, _⟩ => rfl | ⟨1, _⟩ => rfl)

/-- The degree to the power -1/2, as the reference forms it. -/
theorem v29_apply (x1 : (⟨S2x131072, .i32⟩ : BufTy).Contents (Elt Ideal)) (r : Fin 8192) :
    val_main_v29 (F := Ideal) x1 (ix1 r) = dinv (adj0 x1) r := by
  rw [val_main_v29_apply, Ideal.hostPowf_def, val_main_v27_apply, val_main_cst_5_apply, val_main_v28_apply,
    val_main_cst_6_apply, Ideal.ofBits_def, Ideal.ofBits_def]
  simp only [idx27, v26_apply]
  rfl

/-- Where each operation of the reference's tail reads its operands, at an entry given by row and column numbers. -/
theorem lidx38 (r : Fin 8192) (h : Fin 256) (k : Fin 128) : lidx_main_v38 (ix2 r h) k = ix2 r k :=
  funext fun a => Fin.ext (by match a with | ⟨0, _⟩ => rfl | ⟨1, _⟩ => rfl)
theorem ridx38 (r : Fin 8192) (h : Fin 256) (k : Fin 128) : ridx_main_v38 (ix2 r h) k = ix2 k h :=
  funext fun a => Fin.ext (by match a with | ⟨0, _⟩ => rfl | ⟨1, _⟩ => rfl)
theorem lidx36 (r : Fin 8192) (d : Fin 128) (j : Fin 8192) : lidx_main_v36 (ix2 r d) j = ix2 r j :=
  funext fun a => Fin.ext (by match a with | ⟨0, _⟩ => rfl | ⟨1, _⟩ => rfl)
theorem ridx36 (r : Fin 8192) (d : Fin 128) (j : Fin 8192) : ridx_main_v36 (ix2 r d) j = ix2 j d :=
  funext fun a => Fin.ext (by match a with | ⟨0, _⟩ => rfl | ⟨1, _⟩ => rfl)
theorem idx37 (d : Fin 128) (h : Fin 256) : idx_main_v37 (ix2 d h) = ix2 h d :=
  funext fun a => Fin.ext (by match a with | ⟨0, _⟩ => rfl | ⟨1, _⟩ => rfl)
theorem idx31 (r j : Fin 8192) : idx_main_v31 (ix2 r j) = ix2 r (0 : Fin 1) :=
  funext fun a => Fin.ext (by match a with | ⟨0, _⟩ => rfl | ⟨1, _⟩ => rfl)
theorem idx30 (r : Fin 8192) : idx_main_v30 (ix2 r (0 : Fin 1)) = ix1 r :=
  funext fun a => Fin.ext (by match a with | ⟨0, _⟩ => rfl)
theorem idx34 (r j : Fin 8192) : idx_main_v34 (ix2 r j) = ix2 (0 : Fin 1) j :=
  funext fun a => Fin.ext (by match a with | ⟨0, _⟩ => rfl | ⟨1, _⟩ => rfl)
theorem idx33 (j : Fin 8192) : idx_main_v33 (ix2 (0 : Fin 1) j) = ix1 j :=
  funext fun a => Fin.ext (by match a with | ⟨0, _⟩ => rfl)

/-- The normalised matrix at an entry: the row's scale times `Ã r j`, times the column's scale, in that order. -/
theorem v35_apply (x1 : (⟨S2x131072, .i32⟩ : BufTy).Contents (Elt Ideal)) (r j : Fin 8192) :
    val_main_v35 (F := Ideal) x1 (ix2 r j) = (dinv (adj0 x1) r * adjI (adj0 x1) r j) * dinv (adj0 x1) j := by
  rw [val_main_v35_apply, val_main_v32_apply, val_main_v31_apply, val_main_v30_apply, val_main_v34_apply,
    val_main_v33_apply, Ideal.mulf_def, Ideal.mulf_def, idx31, idx30, idx34, idx33, v29_apply, v29_apply, v26_apply]

/-- The normalised matrix times `x`, at an entry, is the specification's aggregation. -/
theorem v36_apply (x0 : (⟨S8192x128, .f32⟩ : BufTy).Contents (Elt Ideal)) (x1 : (⟨S2x131072, .i32⟩ : BufTy).Contents (Elt Ideal))
    (r : Fin 8192) (d : Fin 128) :
    val_main_v36 (F := Ideal) x0 x1 (ix2 r d) = aggRef (adj0 x1) (fun j d => x0 (ix2 j d)) r d := by
  rw [val_main_v36_apply]
  unfold aggRef
  refine Finset.sum_congr rfl (fun j _ => ?_)
  rw [lidx36, ridx36, v35_apply]

/-- The reference's result at (r, h) is the specification's layer over the normalised-matrix aggregation. -/
theorem ref_apply (x0 : (⟨S8192x128, .f32⟩ : BufTy).Contents (Elt Ideal)) (x1 : (⟨S2x131072, .i32⟩ : BufTy).Contents (Elt Ideal))
    (x2 : (⟨S256x128, .f32⟩ : BufTy).Contents (Elt Ideal)) (r : Fin 8192) (h : Fin 256) :
    val_main_v38 (F := Ideal) x0 x1 x2 (ix2 r h)
      = outOf (aggRef (adj0 x1) (fun j d => x0 (ix2 j d))) (fun h d => x2 (ix2 h d)) r h := by
  rw [val_main_v38_apply]
  unfold outOf
  refine Finset.sum_congr rfl (fun d _ => ?_)
  rw [lidx38, ridx38, val_main_v37_apply, idx37, v36_apply]

end Cert.ReferenceIdeal.RefValue

end
-- ==== Proof.KernelHost.lean ====
/-
  What the kernel's region finds in its four arrays, entry by entry.

  Before the region the program scatters ones into a zero matrix at the edge positions (the 0/1 adjacency A), adds one at every
  diagonal position (A + I), sums each row from the float zero (the degree), raises it to -1/2 (the scale s), scales the
  rows of x by s, transposes the weight, and changes float formats, which is the identity on the extended reals.
-/
import proofs.«130447_j9328668967304_1_alg».proof.Proof.Gen.KernelIdeal.Frame
import proofs.«130447_j9328668967304_1_alg».proof.Proof.Adjacency
import proofs.«130447_j9328668967304_1_alg».proof.Proof.GcnSpec
import Idealize.ShloMosaic.Lib.StableHlo.Run
import Idealize.ShloMosaic.Lib.Tactic
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostVal

open Idealize.ShloMosaic Idealize.ShloMosaic.TcCoe Idealize.SL.Sem Idealize.ShloMosaic.ValueIdx Cert.KernelIdeal Cert.KernelIdeal.Gen Cert.GcnSpec
open Idealize.ShloMosaic.StableHlo

variable (m : (ℓ : Loc nD τ sig) → Buf (Elt Ideal) ℓ)

/-- Row 0 of the edge list as a flat list of words: operations %0, %1. -/
def srcK (x1 : IVec S2x131072 32) : IVec S131072 32 :=
  shapeCast S131072 (extractStridedSlice S1x131072 ![0, 0] x1 slices_S2x131072_S1x131072_0_0) shapeCasts_S1x131072_S131072

/-- Row 1 of the edge list as a flat list of words: operations %2, %3. -/
def dstK (x1 : IVec S2x131072 32) : IVec S131072 32 :=
  shapeCast S131072 (extractStridedSlice S1x131072 ![1, 0] x1 slices_S2x131072_S1x131072_1_0) shapeCasts_S1x131072_S131072

/-- A flat list of words with the negative ones moved up by 8192: operations %5 … %9 (and %10 … %14). -/
def wrapK (v : IVec S131072 32) : IVec S131072 32 :=
  select (cmpi .slt v (broadcastInDim S131072 ![] bcast_S_S131072 (constantI S_ 32 0#32)))
    (addi v (broadcastInDim S131072 ![] bcast_S_S131072 (constantI S_ 32 8192#32))) v

/-- The edge list's positions, one (row, column) pair per edge: operations %15 … %17. -/
def posK (x1 : IVec S2x131072 32) : IVec S131072x2 32 :=
  concatenate S131072x2 1
    [⟨S131072x1, broadcastInDim S131072x1 ![0] bcast_S131072_S131072x1_0 (wrapK (srcK x1))⟩,
     ⟨S131072x1, broadcastInDim S131072x1 ![0] bcast_S131072_S131072x1_0 (wrapK (dstK x1))⟩]
    concatenates_S131072x1_S131072x1_S131072x2_d1

/-- The matrix with a one written at every edge position into zeros: operations %4, %18, %19. -/
def a0K (x1 : IVec S2x131072 32) : FVec Ideal S8192x8192 .f32 :=
  Host.scatter scatter_S8192x8192_S131072x2_S131072_n_01_01_1 (fun _ b => b)
    (broadcastInDim S8192x8192 ![] bcast_S_S8192x8192 (constant (F := Ideal) S_ .f32 0x00000000#32))
    (posK x1)
    (broadcastInDim S131072 ![] bcast_S_S131072 (constant (F := Ideal) S_ .f32 0x3F800000#32))

/-- The 0/1 adjacency the kernel's program scatters: operations %0 … %19 of @main applied to the integer argument. -/
def adjK (x1 : IVec S2x131072 32) (r j : Fin 8192) : EReal := a0K x1 (ix2 r j)

/-- Its entries are zero or one. -/
theorem adjK_mem (x1 : IVec S2x131072 32) (r j : Fin 8192) : adjK x1 r j = 0 ∨ adjK x1 r j = 1 := by
  unfold adjK a0K
  have h := Cert.Adjacency.scatter_set_mem scatter_S8192x8192_S131072x2_S131072_n_01_01_1
    (broadcastInDim S8192x8192 ![] bcast_S_S8192x8192 (constant (F := Ideal) S_ .f32 0x00000000#32)) (posK x1)
    (broadcastInDim S131072 ![] bcast_S_S131072 (constant (F := Ideal) S_ .f32 0x3F800000#32))
    (Ideal.ofBits .f32 0x00000000#32) (Ideal.ofBits .f32 0x3F800000#32)
    (fun i => broadcastInDim_scalar_apply bcast_S_S8192x8192 _ i)
    (fun j => broadcastInDim_scalar_apply bcast_S_S131072 _ j) (ix2 r j)
  rw [Ideal.ofBits_zero_f32, Ideal.ofBits_one_f32] at h
  exact h

/-- The diagonal positions (j, j): operations %20 … %33. -/
def diagPosK : IVec S8192x2 32 :=
  concatenate S8192x2 1
    [⟨S8192x1, broadcastInDim S8192x1 ![0] bcast_S8192_S8192x1_0
        (select (cmpi .slt (iotaInDim S8192 32 0) (broadcastInDim S8192 ![] bcast_S_S8192 (constantI S_ 32 0#32)))
          (addi (iotaInDim S8192 32 0) (broadcastInDim S8192 ![] bcast_S_S8192 (constantI S_ 32 8192#32))) (iotaInDim S8192 32 0))⟩,
     ⟨S8192x1, broadcastInDim S8192x1 ![0] bcast_S8192_S8192x1_0
        (select (cmpi .slt (iotaInDim S8192 32 0) (broadcastInDim S8192 ![] bcast_S_S8192 (constantI S_ 32 0#32)))
          (addi (iotaInDim S8192 32 0) (broadcastInDim S8192 ![] bcast_S_S8192 (constantI S_ 32 8192#32))) (iotaInDim S8192 32 0))⟩]
    concatenates_S8192x1_S8192x1_S8192x2_d1

/-- The adjacency with a one added at every diagonal position: operations %34, %35. -/
def atK (x1 : IVec S2x131072 32) : FVec Ideal S8192x8192 .f32 :=
  Host.scatterAdd scatter_S8192x8192_S8192x2_S8192_n_01_01_1 (a0K x1) diagPosK
    (broadcastInDim S8192 ![] bcast_S_S8192 (constant (F := Ideal) S_ .f32 0x3F800000#32))

/-- It is the adjacency with self-loops. -/
theorem atK_apply (x1 : IVec S2x131072 32) (r j : Fin 8192) : atK x1 (ix2 r j) = adjI (adjK x1) r j := by
  unfold atK
  rw [Cert.Adjacency.scatterAdd_diag scatter_S8192x8192_S8192x2_S8192_n_01_01_1 rfl rfl rfl rfl (a0K x1) diagPosK
    (fun j c => Cert.Adjacency.diag_idx_apply bcast_S_S8192 bcast_S8192_S8192x1_0 concatenates_S8192x1_S8192x1_S8192x2_d1 j c)
    (broadcastInDim S8192 ![] bcast_S_S8192 (constant (F := Ideal) S_ .f32 0x3F800000#32))
    (fun j => (broadcastInDim_scalar_apply bcast_S_S8192 _ j).trans Ideal.ofBits_one_f32) r j]
  rfl

/-- The degree to the power -1/2 as a list over the nodes: operations %36, %37, %38. -/
def dinvK (x1 : IVec S2x131072 32) : FVec Ideal S8192 .f32 :=
  Host.powf (Host.reduceAdd (atK x1) (constant (F := Ideal) S_ .f32 0x00000000#32) reducesTo_S8192x8192_S8192_d1 h_S_)
    (broadcastInDim S8192 ![] bcast_S_S8192 (constant (F := Ideal) S_ .f32 0xBF000000#32))

/-- At node r it is the specification's scale. -/
theorem dinvK_apply (x1 : IVec S2x131072 32) (r : Fin 8192) : dinvK x1 (ix1 r) = dinv (adjK x1) r := by
  unfold dinvK
  show Ideal.pow (Host.reduceAdd (atK x1) (constant (F := Ideal) S_ .f32 0x00000000#32) reducesTo_S8192x8192_S8192_d1 h_S_ (ix1 r))
    (broadcastInDim S8192 ![] bcast_S_S8192 (constant (F := Ideal) S_ .f32 0xBF000000#32) (ix1 r)) = _
  rw [broadcastInDim_scalar_apply bcast_S_S8192 _ (ix1 r)]
  simp only [Host.reduceAdd, Ideal.hostReduceAdd_def]
  rw [Ideal.hostReduceAdd_single reducesTo_S8192x8192_S8192_d1 (by decide)]
  unfold dinv deg
  refine congrArg₂ Ideal.pow (congrArg (_ + ·) (Finset.sum_congr rfl fun k _ => ?_)) rfl
  exact (congrArg (atK x1) (funext fun a => Fin.ext (by match a with | ⟨0, _⟩ => rfl | ⟨1, _⟩ => rfl))).trans (atK_apply x1 r k)

/-- A list over the nodes laid as a column: row r of the column holds entry r. -/
theorem reshape_col_apply {α : Type} (v : S8192.Idx → α) (r : Fin 8192) :
    shapeCast S8192x1 v shapeCasts_S8192_S8192x1 (ix2 r (0 : Fin 1)) = v (ix1 r) :=
  shapeCast_apply v shapeCasts_S8192_S8192x1 (ix2 r (0 : Fin 1)) (ix1 r) (by
    rewrite [Shape.rowMajor_val_one, Shape.rowMajor_val_two]
    show r.val = r.val * 1 + 0
    omega)

/-- A list over the nodes laid as a column by a broadcast: row r of the column holds entry r. -/
theorem bcast_col_apply {α : Type} (v : S8192.Idx → α) (r : Fin 8192) :
    broadcastInDim S8192x1 ![0] bcast_S8192_S8192x1_0 v (ix2 r (0 : Fin 1)) = v (ix1 r) :=
  broadcastInDim_apply ![0] bcast_S8192_S8192x1_0 v (ix2 r (0 : Fin 1)) (ix1 r) (fun a => by
    match a with
    | ⟨0, _⟩ => rfl)

/-- A column laid along every column of a 128-wide array: entry (j, d) is the column's entry j. -/
theorem bcast_rows_apply {α : Type} (v : S8192x1.Idx → α) (j : Fin 8192) (d : Fin 128) :
    broadcastInDim S8192x128 ![0, 1] bcast_S8192x1_S8192x128_0_1 v (ix2 j d) = v (ix2 j (0 : Fin 1)) :=
  broadcastInDim_apply ![0, 1] bcast_S8192x1_S8192x128_0_1 v (ix2 j d) (ix2 j (0 : Fin 1)) (fun a => by
    match a with
    | ⟨0, _⟩ => rfl
    | ⟨1, _⟩ => rfl)

/-- The input array as launched, at its vector type. -/
abbrev argX (c : Dev nD) : Vec Ideal S8192x128 .f32 := m ((c : Thread nD τ).loc main_arg0)

set_option maxHeartbeats 8000000 in
/-- What the region finds in the adjacency buffer: the adjacency with self-loops, its float format changed. -/
theorem e42 (c : Dev nD) : (V m c main_v42 : S8192x8192.Idx → EReal)
    = truncf .bf16 (atK (m ((c : Thread nD τ).loc main_arg1))) bitsLt_bf16_f32 := by
  dsimp only [Gen.V, Gen.hostOps0]; after_results <;> rfl

set_option maxHeartbeats 8000000 in
/-- What the region finds in the scaled-input buffer: the input's rows scaled, its float format changed. -/
theorem e43 (c : Dev nD) : (V m c main_v43 : S8192x128.Idx → EReal)
    = truncf .bf16 (mulf (m ((c : Thread nD τ).loc main_arg0) : FVec Ideal S8192x128 .f32)
        (broadcastInDim S8192x128 ![0, 1] bcast_S8192x1_S8192x128_0_1
          (broadcastInDim S8192x1 ![0] bcast_S8192_S8192x1_0 (dinvK (m ((c : Thread nD τ).loc main_arg1)))))) bitsLt_bf16_f32 := by
  dsimp only [Gen.V, Gen.hostOps0]; after_results <;> rfl

/-- What the region finds in the weight buffer: the weight transposed, its float format changed. -/
theorem e45 (c : Dev nD) : (V m c main_v45 : S128x256.Idx → EReal)
    = truncf (F := Ideal) .bf16 (transpose S128x256 [1, 0] (m ((c : Thread nD τ).loc main_arg2) : FVec Ideal S256x128 .f32)
        transposes_S256x128_S128x256_1_0) bitsLt_bf16_f32 := by
  dsimp only [Gen.V, Gen.hostOps0]; after_results

set_option maxHeartbeats 8000000 in
/-- What the region finds in the scale buffer: the scales laid as a column. -/
theorem e46 (c : Dev nD) : (V m c main_v46 : S8192x1.Idx → EReal)
    = shapeCast S8192x1 (dinvK (m ((c : Thread nD τ).loc main_arg1))) shapeCasts_S8192_S8192x1 := by
  dsimp only [Gen.V, Gen.hostOps0]; after_results <;> rfl

/-- The adjacency buffer at (r, j): the adjacency with self-loops. -/
theorem aArr_apply (c : Dev nD) (r j : Fin 8192) :
    (V m c main_v42 : Vec Ideal S8192x8192 .bf16) (ix2 r j) = adjI (adjK (m ((c : Thread nD τ).loc main_arg1))) r j := by
  refine (congrFun (e42 m c) (ix2 r j)).trans ?_
  exact atK_apply _ r j

/-- The scale buffer at row r: the degree to the power -1/2. -/
theorem sArr_apply (c : Dev nD) (r : Fin 8192) :
    (V m c main_v46 : Vec Ideal S8192x1 .f32) (ix2 r (0 : Fin 1)) = dinv (adjK (m ((c : Thread nD τ).loc main_arg1))) r := by
  refine (congrFun (e46 m c) (ix2 r (0 : Fin 1))).trans ?_
  rw [reshape_col_apply]
  exact dinvK_apply _ r

/-- The scaled-input buffer at (j, d): the input's entry times the scale of row j. -/
theorem xsArr_apply (c : Dev nD) (j : Fin 8192) (d : Fin 128) :
    (V m c main_v43 : Vec Ideal S8192x128 .bf16) (ix2 j d)
      = argX m c (ix2 j d) * dinv (adjK (m ((c : Thread nD τ).loc main_arg1))) j := by
  refine (congrFun (e43 m c) (ix2 j d)).trans ?_
  show argX m c (ix2 j d)
      * broadcastInDim S8192x128 ![0, 1] bcast_S8192x1_S8192x128_0_1
          (broadcastInDim S8192x1 ![0] bcast_S8192_S8192x1_0 (dinvK (m ((c : Thread nD τ).loc main_arg1)))) (ix2 j d) = _
  rw [bcast_rows_apply, bcast_col_apply, dinvK_apply]

/-- The weight buffer at (d, h): the weight's entry (h, d). -/
theorem wArr_apply (c : Dev nD) (d : Fin 128) (h : Fin 256) :
    (V m c main_v45 : Vec Ideal S128x256 .bf16) (ix2 d h) = m ((c : Thread nD τ).loc main_arg2) (ix2 h d) := by
  refine (congrFun (e45 m c) (ix2 d h)).trans ?_
  exact transpose_ix2_apply (m ((c : Thread nD τ).loc main_arg2) : FVec Ideal S256x128 .f32) transposes_S256x128_S128x256_1_0 d h

end Cert.KernelIdeal.HostVal

end
-- ==== Proof.AdjAgree.lean ====
/-
  The two programs scatter the same 0/1 adjacency.

  Both programs apply the same twenty operations to the integer argument: slice a row of the edge list, flatten it, wrap the
  negative entries by 8192, lay the two rows side by side as positions, and write ones at those positions into a zero matrix.
  The two spellings differ only in which copy of each shape fact they cite, so the two matrices are the same term.
-/
import proofs.«130447_j9328668967304_1_alg».proof.Proof.KernelHost
import proofs.«130447_j9328668967304_1_alg».proof.Proof.RefValue

noncomputable section

namespace Cert.AdjAgree

open Idealize.ShloMosaic

/-- The adjacency the kernel's program scatters is the adjacency the reference scatters. -/
theorem adjK_eq_adj0 (x1 : IVec Cert.KernelIdeal.S2x131072 32) :
    Cert.KernelIdeal.HostVal.adjK x1 = Cert.ReferenceIdeal.RefValue.adj0 x1 := by
  funext r j
  unfold Cert.KernelIdeal.HostVal.adjK Cert.ReferenceIdeal.RefValue.adj0
  rfl

end Cert.AdjAgree

end
-- ==== Proof.KernelBody.lean ====
/-
  What one step of the graph layer's kernel leaves behind, as plain functions of what it read.

  At a step (i, j) of the 4 x 4 grid the body holds a 2048 x 2048 tile `a` of the adjacency matrix, the whole 8192 x 128
  array `xs` of scaled features, the 128 x 256 weight `w`, the 2048 x 1 column `s` of row scales, and a 2048 x 128
  accumulator. It adds `a · xs[2048 j .. 2048 j + 2047, :]` to the accumulator (from zero when j = 0); at j = 3 it also
  stores `((acc · s) · w)` as the output tile. The three control cases (first, middle, last step of a row of the
  grid) therefore leave: first `0 + a · tile`; middle and last `acc + a · tile`; and the last, in the output, the product
  of the scaled new accumulator with `w`.
-/
import proofs.«130447_j9328668967304_1_alg».proof.Proof.Gen.KernelIdeal.Frame
import proofs.«130447_j9328668967304_1_alg».proof.Proof.Gen.KernelIdeal.Value
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- The 2048 rows of the scaled features that the step with second grid coordinate `i 1` multiplies: rows
    `2048 · (i 1) …`. -/
abbrev xsTile (i : grid0.Coords) (x1 : Vec F S8192x128 .bf16) : Vec F S2048x128 .bf16 :=
  View.ld x1 (Rect.unit (s := S8192x128) (k0_off1 i) S2048x128.size (k0_off1_inb i))

section Pieces

variable (c : Dev nD) (i : grid0.Coords) (arg2 : Memref sig .tc .vmem S2048x2048 .bf16) (harg2 : arg2.IsWhole)
  (arg3 : Memref sig .tc .vmem S8192x128 .bf16) (harg3 : arg3.IsWhole) (arg4 : Memref sig .tc .vmem S128x256 .bf16) (harg4 : arg4.IsWhole)
  (arg5 : Memref sig .tc .vmem S2048x1 .f32) (harg5 : arg5.IsWhole) (arg6 : Memref sig .tc .vmem S2048x256 .f32) (harg6 : arg6.IsWhole)
  (arg7 : Memref sig .tc .vmem S2048x128 .f32) (harg7 : arg7.IsWhole)
  (x0 : Vec F S2048x2048 .bf16) (x1 : Vec F S8192x128 .bf16) (x2 : Vec F S128x256 .bf16) (x3 : Vec F S2048x1 .f32)

/-- A middle step leaves the accumulator plus the tile product. -/
theorem acc_B (hc0 : ¬cond0_0 i) (hc1 : ¬cond0_1 i) (xs0 : Vec F S2048x128 .f32) :
    sout0_B_0 c i arg2 harg2 arg3 harg3 arg4 harg4 arg5 harg5 arg6 harg6 arg7 harg7 hc0 hc1 x0 x1 x2 x3 xs0
      = k0_pay2 (xsTile i x1) x0 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readAt_eq_ld, harg2.read_unread, harg3.read_unread, harg7.read_unread,
    View.ld_unit_zero (S := S2048x2048) hz, View.ld_unit_zero (S := S2048x128) hz]
  rfl

/-- The last step leaves the same in the accumulator. -/
theorem acc_C (hc0 : ¬cond0_0 i) (hc1 : cond0_1 i) (xs0 : Vec F S2048x128 .f32) :
    sout0_C_0 c i arg2 harg2 arg3 harg3 arg4 harg4 arg5 harg5 arg6 harg6 arg7 harg7 hc0 hc1 x0 x1 x2 x3 xs0
      = k0_pay2 (xsTile i x1) x0 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg7.read_unread,
    View.ld_unit_zero (S := S2048x2048) hz, View.ld_unit_zero (S := S2048x128) hz]
  rfl

/-- The first step resets the accumulator to zero and leaves zero plus the tile product. -/
theorem acc_A (hc0 : cond0_0 i) (hc1 : ¬cond0_1 i) :
    sout0_A_0 c i arg2 harg2 arg3 harg3 arg4 harg4 arg5 harg5 arg6 harg6 arg7 harg7 hc0 hc1 x0 x1 x2 x3
      = k0_pay2 (xsTile i x1) x0 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S2048x128) hz, View.readCov_unit_zero (S := S2048x128) _ hz]
  simp only [View.readAt_eq_ld, harg2.read_unread, harg3.read_unread,
    View.ld_unit_zero (S := S2048x2048) hz, View.ld_unit_zero (S := S2048x128) hz]
  rfl

/-- The last step's output tile: the new accumulator, scaled row by row, times the weight. -/
theorem out_C (hc0 : ¬cond0_0 i) (hc1 : cond0_1 i) (xs0 : Vec F S2048x128 .f32) :
    out0_C_4 c i arg2 harg2 arg3 harg3 arg4 harg4 arg5 harg5 arg6 harg6 arg7 harg7 hc0 hc1 x0 x1 x2 x3 xs0
      = k0_pay3 (k0_pay2 (xsTile i x1) x0 xs0) x3 x2 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread,
    View.readCov_unit_zero (S := S2048x128) _ hz,
    View.ld_unit_zero (S := S2048x2048) hz, View.ld_unit_zero (S := S2048x128) hz, View.ld_unit_zero (S := S2048x1) hz,
    View.ld_unit_zero (S := S128x256) hz]
  rfl

end Pieces

end Cert.KernelIdeal.Body

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KernelPay.lean ====
/-
  The kernel body's three stored values, read entry by entry on the extended reals.

  The reset stores zero. The accumulation stores `acc + a · tile`: entry (p, d) is `acc (p, d) + ∑ k, a (p, k) · tile (k, d)`.
  The epilogue stores `((acc · s) as a row scaling) · w`: entry (p, h) is `∑ d, (acc (p, d) · s (p, 0)) · w (d, h)`; the change of
  float format in between is the identity on the extended reals.
-/
import proofs.«130447_j9328668967304_1_alg».proof.Proof.Gen.KernelIdeal.Skeleton
import proofs.«130447_j9328668967304_1_alg».proof.Proof.LibDense
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay

open Idealize.ShloMosaic Idealize.ShloMosaic.ValueIdx Cert.KernelIdeal Cert.KernelIdeal.Gen

/-- The accumulation's product is the rows-by-columns one: 2048 × 2048 by 2048 × 128. -/
theorem dot_acc_eq : dot_S2048x2048_S2048x128_S2048x128_1_0_0_1_n_n = DotDims.plain 2048 2048 128 := rfl

/-- The epilogue's product is the rows-by-columns one: 2048 × 128 by 128 × 256. -/
theorem dot_out_eq : dot_S2048x128_S128x256_S2048x256_1_0_0_1_n_n = DotDims.plain 2048 128 256 := rfl

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reset value is zero everywhere. -/
theorem pay1_apply (p : Fin 2048) (d : Fin 128) : k0_pay1 (F := Ideal) (ix2 p d) = 0 := by
  unfold k0_pay1
  rw [shapeCast_self]
  show Ideal.ofBits .f32 0x00000000#32 = 0
  exact Ideal.ofBits_zero_f32

/-- The accumulation at (p, d). -/
theorem pay2_apply (v6 : Vec Ideal S2048x128 .bf16) (v8 : Vec Ideal S2048x2048 .bf16) (v10 : Vec Ideal S2048x128 .f32)
    (p : Fin 2048) (d : Fin 128) :
    k0_pay2 (F := Ideal) v6 v8 v10 (ix2 p d) = v10 (ix2 p d) + ∑ k : Fin 2048, v8 (ix2 p k) * v6 (ix2 k d) := by
  unfold k0_pay2
  rw [shapeCast_self, shapeCast_self, shapeCast_self]
  -- the accumulator's entry plus the product's entry
  show v10 (ix2 p d) + FloatOps.matmul dot_S2048x2048_S2048x128_S2048x128_1_0_0_1_n_n none v8 v6
      (constant (F := Ideal) S2048x128 .f32 0x00000000#32) (ix2 p d) = _
  rw [dot_acc_eq]
  exact congrArg (v10 (ix2 p d) + ·) (Cert.LibDense.matmul_plain_zero_apply none v8 v6 p d)

/-- The epilogue at (p, h). -/
theorem pay3_apply (v19 : Vec Ideal S2048x128 .f32) (v20 : Vec Ideal S2048x1 .f32) (v25 : Vec Ideal S128x256 .bf16)
    (p : Fin 2048) (h : Fin 256) :
    k0_pay3 (F := Ideal) v19 v20 v25 (ix2 p h)
      = ∑ d : Fin 128, (v19 (ix2 p d) * v20 (ix2 p (0 : Fin 1))) * v25 (ix2 d h) := by
  unfold k0_pay3
  rw [shapeCast_self, shapeCast_self]
  show FloatOps.matmul dot_S2048x128_S128x256_S2048x256_1_0_0_1_n_n none
      (truncf .bf16 (mulf v19 (broadcastTo S2048x128 v20 broadcasts_S2048x1_S2048x128)) bitsLt_bf16_f32) v25
      (constant (F := Ideal) S2048x256 .f32 0x00000000#32) (ix2 p h) = _
  rw [dot_out_eq]
  refine (Cert.LibDense.matmul_plain_zero_apply (φ₁ := .bf16) (φ₂ := .bf16) none
    (truncf .bf16 (mulf v19 (broadcastTo S2048x128 v20 broadcasts_S2048x1_S2048x128)) bitsLt_bf16_f32) v25 p h).trans ?_
  refine Finset.sum_congr rfl fun dd _ => ?_
  -- the change of format is the identity; the scaled accumulator at (p, dd)
  show (v19 (ix2 p dd) * broadcastTo S2048x128 v20 broadcasts_S2048x1_S2048x128 (ix2 p dd)) * v25 (ix2 dd h) = _
  rw [broadcastTo_a1_ab_apply]

end Cert.KernelIdeal.Pay

end
-- ==== Proof.KernelIdx.lean ====
/-
  What each grid point's blocks are, entry by entry, of the arrays the region reads.

  The grid is 4 x 4, point t = 4 i + j. The adjacency window's block at t is tile (i, j): entry (p, k) is
  a (2048 i + p, 2048 j + k). The feature and weight windows hold their whole arrays. The scale window's block is rows
  2048 i …. The slice of the features the body loads at t is rows 2048 j ….
-/
import proofs.«130447_j9328668967304_1_alg».proof.Proof.Gen.KernelIdeal.Frame
import proofs.«130447_j9328668967304_1_alg».proof.Proof.Gen.KernelIdeal.Value
import proofs.«130447_j9328668967304_1_alg».proof.Proof.KernelBody
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Body

variable (m : (ℓ : Loc nD τ sig) → Buf (Elt Ideal) ℓ) (ρ : Dev nD → PrngReg)

/-- The arrays the region reads, as it finds them: the adjacency with self-loops, the scaled features, the transposed
    weight, the column of row scales. -/
abbrev aArr (c : Dev nD) : Vec Ideal S8192x8192 .bf16 := V m c main_v42
abbrev xsArr (c : Dev nD) : Vec Ideal S8192x128 .bf16 := V m c main_v43
abbrev wArr (c : Dev nD) : Vec Ideal S128x256 .bf16 := V m c main_v45
abbrev sArr (c : Dev nD) : Vec Ideal S8192x1 .f32 := V m c main_v46

theorem N16 : cfg0.N = 16 := N_0

/-- The printed index maps over the sixteen points: point t = 4 i + j reads adjacency tile (i, j), the whole feature and
    weight arrays, scale rows i, and writes output rows i; its feature slice starts at row 2048 j. -/
theorem idx_facts : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-- The adjacency tile of point t, entry (p, k). -/
theorem aBlk_apply (c : Dev nD) (t : Fin cfg0.N) (p k : Fin 2048) :
    (iblk m c 0 t : Vec Ideal S2048x2048 .bf16) (ix2 p k)
      = aArr m c (ix2 (⟨2048 * (t.val / 4) + p.val, by have := t.isLt; have := N16; omega⟩ : Fin 8192)
          (⟨2048 * (t.val % 4) + k.val, by omega⟩ : Fin 8192)) := by
  obtain ⟨e0, e1, -⟩ := idx_facts t
  unfold iblk
  rw [View.read_apply]
  show V m c main_v42 _ = V m c main_v42 _
  congr 1
  funext a
  apply Fin.ext
  match a with
  | ⟨0, _⟩ => show win0_0.index t (0 : Fin 2) * 2048 + 1 * p.val = 2048 * (t.val / 4) + p.val; omega
  | ⟨1, _⟩ => show win0_0.index t (1 : Fin 2) * 2048 + 1 * k.val = 2048 * (t.val % 4) + k.val; omega

/-- The feature window holds the whole array at every point. -/
theorem xsBlk_apply (c : Dev nD) (t : Fin cfg0.N) (j : Fin 8192) (d : Fin 128) :
    (iblk m c 1 t : Vec Ideal S8192x128 .bf16) (ix2 j d) = xsArr m c (ix2 j d) := by
  obtain ⟨-, -, e0, e1, -⟩ := idx_facts t
  unfold iblk
  rw [View.read_apply]
  show V m c main_v43 _ = V m c main_v43 _
  congr 1
  funext a
  apply Fin.ext
  match a with
  | ⟨0, _⟩ => show win0_1.index t (0 : Fin 2) * 8192 + 1 * j.val = j.val; omega
  | ⟨1, _⟩ => show win0_1.index t (1 : Fin 2) * 128 + 1 * d.val = d.val; omega

/-- The weight window holds the whole array at every point. -/
theorem wBlk_apply (c : Dev nD) (t : Fin cfg0.N) (d : Fin 128) (h : Fin 256) :
    (iblk m c 2 t : Vec Ideal S128x256 .bf16) (ix2 d h) = wArr m c (ix2 d h) := by
  obtain ⟨-, -, -, -, e0, e1, -⟩ := idx_facts t
  unfold iblk
  rw [View.read_apply]
  show V m c main_v45 _ = V m c main_v45 _
  congr 1
  funext a
  apply Fin.ext
  match a with
  | ⟨0, _⟩ => show win0_2.index t (0 : Fin 2) * 128 + 1 * d.val = d.val; omega
  | ⟨1, _⟩ => show win0_2.index t (1 : Fin 2) * 256 + 1 * h.val = h.val; omega

/-- The scale window's block at point t: rows 2048 (t / 4) …. -/
theorem sBlk_apply (c : Dev nD) (t : Fin cfg0.N) (p : Fin 2048) :
    (iblk m c 3 t : Vec Ideal S2048x1 .f32) (ix2 p (0 : Fin 1))
      = sArr m c (ix2 (⟨2048 * (t.val / 4) + p.val, by have := t.isLt; have := N16; omega⟩ : Fin 8192) (0 : Fin 1)) := by
  obtain ⟨-, -, -, -, -, -, e0, e1, -⟩ := idx_facts t
  unfold iblk
  rw [View.read_apply]
  show V m c main_v46 _ = V m c main_v46 _
  congr 1
  funext a
  apply Fin.ext
  match a with
  | ⟨0, _⟩ => show win0_3.index t (0 : Fin 2) * 2048 + 1 * p.val = 2048 * (t.val / 4) + p.val; omega
  | ⟨1, _⟩ => show win0_3.index t (1 : Fin 2) * 1 + 1 * 0 = 0; omega

/-- The feature rows the body loads at point t: rows 2048 (t % 4) …. -/
theorem xsTile_apply (t : Fin cfg0.N) (X : Vec Ideal S8192x128 .bf16) (k : Fin 2048) (d : Fin 128) :
    xsTile (grid0.coords t) X (ix2 k d) = X (ix2 (⟨2048 * (t.val % 4) + k.val, by omega⟩ : Fin 8192) d) := by
  obtain ⟨-, -, -, -, -, -, -, -, -, -, e0, e1⟩ := idx_facts t
  show X _ = X _
  congr 1
  funext a
  apply Fin.ext
  match a with
  | ⟨0, _⟩ => show k0_off1 (grid0.coords t) (0 : Fin 2) + 1 * k.val = 2048 * (t.val % 4) + k.val; omega
  | ⟨1, _⟩ => show k0_off1 (grid0.coords t) (1 : Fin 2) + 1 * d.val = d.val; omega

end Cert.KernelIdeal.Blocks

end
-- ==== Proof.KernelCover.lean ====
/-
  The tiles the kernel writes back cover its result array.

  The grid is 4 x 4, point t = 4 i + j. The result array is 8192 x 256 and its window's block at point t is rows
  2048 (t / 4) … 2048 (t / 4) + 2047, all 256 columns. The block is written back at the last point of each grid row,
  t % 4 = 3. So row r of the array lies in the block written back at point 4 (r / 2048) + 3, and entry (p, h) of point t's
  block is entry (2048 (t / 4) + p, h) of the array.
-/
import proofs.«130447_j9328668967304_1_alg».proof.Proof.Gen.KernelIdeal.Frame
import proofs.«130447_j9328668967304_1_alg».proof.Proof.KernelIdx
import Idealize.ShloMosaic.Lib.Pipeline.Value
import Idealize.ShloMosaic.Lib.ValueIdx

set_option maxRecDepth 16384

noncomputable section

namespace Cert.KernelIdeal.Cover

open Idealize.ShloMosaic Idealize.ShloMosaic.TcCoe Idealize.SL.Sem Idealize.ShloMosaic.ValueIdx Cert.KernelIdeal Cert.KernelIdeal.Gen Cert.KernelIdeal.Blocks

/-- An index of the result array is in point t's block iff its row is in rows 2048 (t / 4) … 2048 (t / 4) + 2047. -/
theorem mem_blk4 (t : Fin cfg0.N) (i : S8192x256.Idx) :
    i ∈ ((cfg0.win 4).blk t).view.set ↔ 2048 * (t.val / 4) ≤ (i 0).val ∧ (i 0).val < 2048 * (t.val / 4) + 2048 := by
  show i ∈ ((View.whole main_v47).slice (win0_4.rect t)).set ↔ _
  rw [View.set_slice_whole, Rect.mem_set_unit]
  obtain ⟨-, -, -, -, -, -, -, -, e0, e1, -⟩ := idx_facts t
  have hi1 : (i 1).val < 256 := (i 1).isLt
  constructor
  · intro hi
    have b0 : win0_4.index t (0 : Fin 2) * 2048 ≤ (i 0).val ∧ (i 0).val < win0_4.index t (0 : Fin 2) * 2048 + 2048 := hi 0
    omega
  · intro hi a
    match a with
    | ⟨0, _⟩ =>
      show win0_4.index t (0 : Fin 2) * 2048 ≤ (i 0).val ∧ (i 0).val < win0_4.index t (0 : Fin 2) * 2048 + 2048
      omega
    | ⟨1, _⟩ =>
      show win0_4.index t (1 : Fin 2) * 256 ≤ (i 1).val ∧ (i 1).val < win0_4.index t (1 : Fin 2) * 256 + 256
      omega

/-- Every index of the result array lies in the block of a point that writes back: row r is in the block of the last
    point of grid row r / 2048, the point 4 (r / 2048) + 3. -/
theorem cover4 (i : S8192x256.Idx) : ∃ t : Fin cfg0.N, (cfg0.win 4).flush t = true ∧ i ∈ ((cfg0.win 4).blk t).view.set := by
  have hi0 : (i 0).val < 8192 := (i 0).isLt
  have hN := N16
  refine ⟨⟨4 * ((i 0).val / 2048) + 3, by omega⟩, (flush0_4 _).mpr ?_, ?_⟩
  · show (4 * ((i 0).val / 2048) + 3) % 4 = 3
    omega
  · rw [mem_blk4]
    show 2048 * ((4 * ((i 0).val / 2048) + 3) / 4) ≤ (i 0).val
      ∧ (i 0).val < 2048 * ((4 * ((i 0).val / 2048) + 3) / 4) + 2048
    omega

/-- Entry (p, h) of point t's block is entry (2048 (t / 4) + p, h) of the array. -/
theorem emb4 (t : Fin cfg0.N) (p : Fin 2048) (h : Fin 256) :
    ((cfg0.win 4).blk t).view.emb (ix2 p h : S2048x256.Idx)
      = ix2 (⟨2048 * (t.val / 4) + p.val, by have := t.isLt; have := N16; omega⟩ : Fin 8192) h := by
  obtain ⟨-, -, -, -, -, -, -, -, e0, e1, -⟩ := idx_facts t
  funext a
  apply Fin.ext
  match a with
  | ⟨0, _⟩ => show win0_4.index t (0 : Fin 2) * 2048 + 1 * p.val = 2048 * (t.val / 4) + p.val; omega
  | ⟨1, _⟩ => show win0_4.index t (1 : Fin 2) * 256 + 1 * h.val = h.val; omega

end Cert.KernelIdeal.Cover

end
-- ==== Proof.KernelFold.lean ====
/-
  The kernel's result array, entry by entry, from the arrays its region reads.

  The grid is 4 x 4: point t = 4 i + j works on row tile i of the output and column tile j of the adjacency. Over the
  four points of a row tile the accumulator goes 0 + P₀, + P₁, + P₂, + P₃ with Pⱼ (p, d) = ∑ k, a (2048 i + p, 2048 j + k) ·
  xs (2048 j + k, d); the last point of the row tile writes back `∑ d, (acc (p, d) · s (2048 i + p)) · w (d, h)`. The four
  written tiles cover the 8192 x 256 result.
-/
import proofs.«130447_j9328668967304_1_alg».proof.Proof.Gen.KernelIdeal.Frame
import proofs.«130447_j9328668967304_1_alg».proof.Proof.Gen.KernelIdeal.Value
import proofs.«130447_j9328668967304_1_alg».proof.Proof.KernelBody
import proofs.«130447_j9328668967304_1_alg».proof.Proof.KernelPay
import proofs.«130447_j9328668967304_1_alg».proof.Proof.KernelIdx
import proofs.«130447_j9328668967304_1_alg».proof.Proof.KernelCover
import proofs.«130447_j9328668967304_1_alg».proof.Proof.GcnSpec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Fold

open Cert.KernelIdeal Cert.KernelIdeal.Gen Cert.KernelIdeal.Body Cert.KernelIdeal.Pay Cert.KernelIdeal.Blocks Cert.KernelIdeal.Cover

variable (m : (ℓ : Loc nD τ sig) → Buf (Elt Ideal) ℓ) (ρ : Dev nD → PrngReg)

/-- The four input blocks of a point, at their literal types. -/
abbrev aBlk (c : Dev nD) (t : Fin cfg0.N) : Vec Ideal S2048x2048 .bf16 := iblk m c 0 t
abbrev xsBlk (c : Dev nD) (t : Fin cfg0.N) : Vec Ideal S8192x128 .bf16 := iblk m c 1 t
abbrev wBlk (c : Dev nD) (t : Fin cfg0.N) : Vec Ideal S128x256 .bf16 := iblk m c 2 t
abbrev sBlk (c : Dev nD) (t : Fin cfg0.N) : Vec Ideal S2048x1 .f32 := iblk m c 3 t

theorem aBlk_eq (c : Dev nD) (t : Fin cfg0.N) (p k : Fin 2048) :
    aBlk m c t (ix2 p k) = aArr m c (ix2 (⟨2048 * (t.val / 4) + p.val, by have := t.isLt; have := N16; omega⟩ : Fin 8192)
      (⟨2048 * (t.val % 4) + k.val, by omega⟩ : Fin 8192)) := aBlk_apply m c t p k
theorem xsBlk_eq (c : Dev nD) (t : Fin cfg0.N) (j : Fin 8192) (d : Fin 128) : xsBlk m c t (ix2 j d) = xsArr m c (ix2 j d) :=
  xsBlk_apply m c t j d
theorem wBlk_eq (c : Dev nD) (t : Fin cfg0.N) (d : Fin 128) (h : Fin 256) : wBlk m c t (ix2 d h) = wArr m c (ix2 d h) :=
  wBlk_apply m c t d h
theorem sBlk_eq (c : Dev nD) (t : Fin cfg0.N) (p : Fin 2048) :
    sBlk m c t (ix2 p (0 : Fin 1))
      = sArr m c (ix2 (⟨2048 * (t.val / 4) + p.val, by have := t.isLt; have := N16; omega⟩ : Fin 8192) (0 : Fin 1)) :=
  sBlk_apply m c t p

/-- The product of point n's adjacency tile with the feature rows it loads, at (p, d); zero past the grid. -/
def tileProd (c : Dev nD) (n : ℕ) (p : Fin 2048) (d : Fin 128) : EReal :=
  if hn : n < cfg0.N then
    ∑ k : Fin 2048, aBlk m c ⟨n, hn⟩ (ix2 p k) * xsTile (grid0.coords ⟨n, hn⟩) (xsBlk m c ⟨n, hn⟩) (ix2 k d)
  else 0

/-- The first point of a row tile leaves zero plus its tile product in the accumulator, whatever it held. -/
theorem scAt_first (c : Dev nD) (n : ℕ) (hb : n < cfg0.N) (h0 : n % 4 = 0) (acc : Vec Ideal S2048x128 .f32)
    (y : S2048x128.Idx) : Value.scAt0_0 m c n hb acc y = 0 + tileProd m c n (y 0) (y 1) := by
  have h1 : ¬n % 4 = 3 := by omega
  obtain ⟨p, d, rfl⟩ : ∃ (p : Fin 2048) (d : Fin 128), y = ix2 p d := ⟨y 0, y 1, eq_ix2 y⟩
  unfold Value.scAt0_0
  rw [dif_pos h0, dif_neg h1, acc_A, pay2_apply, pay1_apply]
  unfold tileProd
  rw [dif_pos hb]

/-- Every later point adds its tile product to what the point before left. -/
theorem scAt_next (c : Dev nD) (n : ℕ) (hb : n < cfg0.N) (h0 : ¬n % 4 = 0) (acc : Vec Ideal S2048x128 .f32)
    (y : S2048x128.Idx) : Value.scAt0_0 m c n hb acc y = acc y + tileProd m c n (y 0) (y 1) := by
  obtain ⟨p, d, rfl⟩ : ∃ (p : Fin 2048) (d : Fin 128), y = ix2 p d := ⟨y 0, y 1, eq_ix2 y⟩
  unfold Value.scAt0_0
  rw [dif_neg h0]
  unfold tileProd
  rw [dif_pos hb]
  split
  · rw [acc_C, pay2_apply]
  · rw [acc_B, pay2_apply]

/-- THE FOLD: after the last point of a row tile the accumulator holds zero plus the four tile products of the row tile's
    points, whatever it held before the row tile began. -/
theorem acc_last (c : Dev nD) (t : Fin cfg0.N) (h3 : t.val % 4 = 3) (y : S2048x128.Idx) :
    (outsAt0 m c t.val t.isLt).2 y
      = 0 + ∑ s ∈ Finset.range 4, tileProd m c (4 * (t.val / 4) + s) (y 0) (y 1) := by
  have key : ∀ (j : ℕ) (_ : j ≤ 3) (h : 4 * (t.val / 4) + j < cfg0.N),
      Pipeline.accAt (fun n h => Value.scAt0_0 m c n h (VS0_0.read (Elt Ideal) VS0_0.junk)) (Value.scAt0_0 m c)
          (4 * (t.val / 4)) j h y
        = (fun _ => (0 : EReal)) y + ∑ s ∈ Finset.range (j + 1), (fun n (y : S2048x128.Idx) => tileProd m c n (y 0) (y 1)) (4 * (t.val / 4) + s) y :=
    fun j hj h => Pipeline.accAt_add_apply
      (fun n h => Value.scAt0_0 m c n h (VS0_0.read (Elt Ideal) VS0_0.junk)) (Value.scAt0_0 m c)
      (fun _ => (0 : EReal)) (fun n (y : S2048x128.Idx) => tileProd m c n (y 0) (y 1)) (4 * (t.val / 4)) 3
      (fun h i => scAt_first m c _ h (by omega) _ i)
      (fun n h acc i hlt hle => scAt_next m c n h (by omega) acc i) j hj h y
  rw [Value.soutsAt0_0_eq m c t, key _ (by omega) _, h3]

/-- One term of a row's product with a feature column, indexed by a natural number (zero past the array). -/
def rowTerm (c : Dev nD) (r : Fin 8192) (d : Fin 128) (j : ℕ) : EReal :=
  if hj : j < 8192 then aArr m c (ix2 r ⟨j, hj⟩) * xsArr m c (ix2 ⟨j, hj⟩ d) else 0

/-- A point's tile product is the part of the row's product over the point's 2048 columns. -/
theorem tileProd_eq (c : Dev nD) (n : ℕ) (hn : n < cfg0.N) (p : Fin 2048) (d : Fin 128) :
    tileProd m c n p d
      = ∑ k : Fin 2048, rowTerm m c (⟨2048 * (n / 4) + p.val, by have := N16; omega⟩ : Fin 8192) d (2048 * (n % 4) + k.val) := by
  unfold tileProd
  rw [dif_pos hn]
  refine Finset.sum_congr rfl fun k _ => ?_
  rw [aBlk_eq m c ⟨n, hn⟩ p k, xsTile_apply ⟨n, hn⟩ (xsBlk m c ⟨n, hn⟩) k d, xsBlk_eq]
  unfold rowTerm
  rw [dif_pos (show 2048 * (n % 4) + k.val < 8192 by omega)]

/-- The accumulator after the last point of a row tile, entry (p, d): zero plus the whole row's product. -/
theorem acc_row (c : Dev nD) (t : Fin cfg0.N) (h3 : t.val % 4 = 3) (p : Fin 2048) (d : Fin 128) :
    (outsAt0 m c t.val t.isLt).2 (ix2 p d)
      = 0 + ∑ j : Fin 8192, aArr m c (ix2 (⟨2048 * (t.val / 4) + p.val, by have := t.isLt; have := N16; omega⟩ : Fin 8192) j)
          * xsArr m c (ix2 j d) := by
  have hN := N16
  have ht := t.isLt
  rw [acc_last m c t h3]
  refine congrArg (fun z => (0 : EReal) + z) ?_
  have hR : (∑ j : Fin 8192, aArr m c (ix2 (⟨2048 * (t.val / 4) + p.val, by omega⟩ : Fin 8192) j) * xsArr m c (ix2 j d))
      = ∑ j : Fin 8192, rowTerm m c (⟨2048 * (t.val / 4) + p.val, by omega⟩ : Fin 8192) d j.val :=
    Finset.sum_congr rfl fun j _ => by unfold rowTerm; rw [dif_pos j.isLt]
  rw [hR, ← Cert.GcnSpec.tile_sum (rowTerm m c (⟨2048 * (t.val / 4) + p.val, by omega⟩ : Fin 8192) d)]
  · refine Finset.sum_congr rfl fun s hs => ?_
    have hs4 : s < 4 := Finset.mem_range.mp hs
    rw [show (ix2 p d : S2048x128.Idx) 0 = p from rfl, show (ix2 p d : S2048x128.Idx) 1 = d from rfl,
      tileProd_eq m c (4 * (t.val / 4) + s) (by omega) p d]
    refine Finset.sum_congr rfl fun k _ => ?_
    have e1 : (⟨2048 * ((4 * (t.val / 4) + s) / 4) + p.val, by omega⟩ : Fin 8192) = ⟨2048 * (t.val / 4) + p.val, by omega⟩ :=
      Fin.ext (by show 2048 * ((4 * (t.val / 4) + s) / 4) + p.val = 2048 * (t.val / 4) + p.val; omega)
    have e2 : 2048 * ((4 * (t.val / 4) + s) % 4) + k.val = 2048 * s + k.val := by omega
    rw [e1, e2]

/-- At the last point of a row tile the accumulator is the accumulation step applied to what the point before left. -/
theorem acc_at_last (c : Dev nD) (t : Fin cfg0.N) (h0 : ¬t.val % 4 = 0) (h3 : t.val % 4 = 3) :
    (outsAt0 m c t.val t.isLt).2
      = k0_pay2 (xsTile (grid0.coords t) (iblk m c 1 t)) (iblk m c 0 t)
          (outsAt0 m c (t.val - 1) (Nat.lt_of_le_of_lt (Nat.sub_le _ _) t.isLt)).2 := by
  rw [outsAt0_C m c t h0 h3]
  dsimp only
  exact acc_C c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (iblk m c 3 t)
    (fun h => h0 ((hcond0_0 t).mp h)) ((hcond0_1 t).mpr h3) _

/-- THE RESULT ARRAY: entry (r, h) is `∑ d, ((0 + ∑ j, a (r, j) · xs (j, d)) · s (r, 0)) · w (d, h)` of the arrays the region reads. -/
def G (c : Dev nD) : S8192x256.Idx → EReal := fun i =>
  ∑ d : Fin 128, ((0 + ∑ j : Fin 8192, aArr m c (ix2 (i 0) j) * xsArr m c (ix2 j d)) * sArr m c (ix2 (i 0) (0 : Fin 1)))
    * wArr m c (ix2 d (i 1))

/-- What a writing point writes back is its block of the result array. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  have h0 : ¬t.val % 4 = 0 := by omega
  rw [Value.flushed4_C m c t h0 h3, out_C, ← acc_at_last m c t h0 h3]
  funext y
  obtain ⟨p, h, rfl⟩ : ∃ (p : Fin 2048) (h : Fin 256), y = ix2 p h := ⟨y 0, y 1, eq_ix2 y⟩
  show k0_pay3 ((outsAt0 m c t.val t.isLt).2) (sBlk m c t) (wBlk m c t) (ix2 p h) = G m c (((cfg0.win 4).blk t).view.emb (ix2 p h))
  rw [pay3_apply, emb4]
  unfold G
  refine Finset.sum_congr rfl fun d _ => ?_
  rw [acc_row m c t h3 p d, sBlk_eq, wBlk_eq]

/-- So the result array ends holding `G`. -/
theorem final (c : Dev nD) : (dats m 0 c).arrAt 4 cfg0.N = G m c :=
  (dats m 0 c).arrAt_eq_of_cover 4 (G m c) (flushed_eq m c) cover4

/-- The kernel's run, read: the result array at `G`, the arguments unchanged. -/
theorem run : θ_run defs (onTc (τ := τ) (main (F := Ideal))) ⟨m, fun _ => 0, ρ⟩ fun r => ∀ c : Dev nD,
      r.2.mem ((c : Thread nD τ).loc main_v47) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Fold

end
-- ==== Proof.Claims.lean ====
/-
  The five claims of the graph layer's certificate.

  The kernel's result array is `G` of the four arrays its region reads; those are, from the arguments, the adjacency
  with self-loops `Ã`, the features scaled row-wise by `s = deg^(-1/2)`, the transposed weight and the column `s`. So the
  kernel computes `out r h = ∑ d, ((∑ j, Ã r j · (x j d · s j)) · s r) · W h d`. The reference computes
  `∑ d, (∑ j, ((s r · Ã r j) · s j) · x j d) · W h d` over the same `Ã` (the two programs build the 0/1 adjacency by the same
  operations; one adds the identity by a scatter-add along the diagonal, the other by adding the matrix that compares row
  and column numbers). The entries of `Ã` are 0, 1 or 2 and a real power of a real is a real, so `s` is real; the
  precondition makes `x` real; then `s r` moves across the finite sum and the two aggregations agree entry by entry, and
  the final product with `W` is the same sum on both sides (nothing is asked of `W`).
-/
import proofs.«130447_j9328668967304_1_alg».proof.Defs
import proofs.«130447_j9328668967304_1_alg».proof.Proof.Gen.Kernel
import proofs.«130447_j9328668967304_1_alg».proof.Proof.Gen.Kernel.Frame
import proofs.«130447_j9328668967304_1_alg».proof.Proof.Gen.KernelIdeal
import proofs.«130447_j9328668967304_1_alg».proof.Proof.Gen.KernelIdeal.Frame
import proofs.«130447_j9328668967304_1_alg».proof.Proof.Gen.KernelIdeal.Value
import proofs.«130447_j9328668967304_1_alg».proof.Proof.Gen.ReferenceIdeal
import proofs.«130447_j9328668967304_1_alg».proof.Proof.Gen.ReferenceIdeal.Run
import proofs.«130447_j9328668967304_1_alg».proof.Proof.Gen.ReferenceIdeal.Read
import proofs.«130447_j9328668967304_1_alg».proof.Proof.Gen.Pre_finite_inputs
import proofs.«130447_j9328668967304_1_alg».proof.Proof.GcnSpec
import proofs.«130447_j9328668967304_1_alg».proof.Proof.PreReal
import proofs.«130447_j9328668967304_1_alg».proof.Proof.RefValue
import proofs.«130447_j9328668967304_1_alg».proof.Proof.KernelHost
import proofs.«130447_j9328668967304_1_alg».proof.Proof.AdjAgree
import proofs.«130447_j9328668967304_1_alg».proof.Proof.KernelFold

noncomputable section

namespace Cert.Proof.GcnClaims

open Idealize.ShloMosaic Idealize.ShloMosaic.TcCoe Idealize.SL.Sem Idealize.ShloMosaic.ValueIdx Cert.GcnSpec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result array, entry by entry, is the layer over the scale-first aggregation of the arguments. -/
theorem kernel_entry (m : (ℓ : Loc Cert.KernelIdeal.nD Cert.KernelIdeal.τ Cert.KernelIdeal.sig) → Buf (Elt Ideal) ℓ)
    (c : Dev Cert.KernelIdeal.nD) (r : Fin 8192) (h : Fin 256) :
    Cert.KernelIdeal.Fold.G m c (ix2 r h)
      = outOf (aggKer (Cert.KernelIdeal.HostVal.adjK (m ((c : Thread Cert.KernelIdeal.nD Cert.KernelIdeal.τ).loc Cert.KernelIdeal.main_arg1)))
            (fun j d => m ((c : Thread Cert.KernelIdeal.nD Cert.KernelIdeal.τ).loc Cert.KernelIdeal.main_arg0) (ix2 j d)))
          (fun h d => m ((c : Thread Cert.KernelIdeal.nD Cert.KernelIdeal.τ).loc Cert.KernelIdeal.main_arg2) (ix2 h d)) r h := by
  have ea : ∀ (r j : Fin 8192), Cert.KernelIdeal.Blocks.aArr m c (ix2 r j) = _ := fun r j => Cert.KernelIdeal.HostVal.aArr_apply m c r j
  have ex : ∀ (j : Fin 8192) (d : Fin 128), Cert.KernelIdeal.Blocks.xsArr m c (ix2 j d) = _ := fun j d => Cert.KernelIdeal.HostVal.xsArr_apply m c j d
  have es : ∀ (r : Fin 8192), Cert.KernelIdeal.Blocks.sArr m c (ix2 r (0 : Fin 1)) = _ := fun r => Cert.KernelIdeal.HostVal.sArr_apply m c r
  have ew : ∀ (d : Fin 128) (h : Fin 256), Cert.KernelIdeal.Blocks.wArr m c (ix2 d h) = _ := fun d h => Cert.KernelIdeal.HostVal.wArr_apply m c d h
  unfold Cert.KernelIdeal.Fold.G outOf aggKer
  show (∑ d : Fin 128, ((0 + ∑ j : Fin 8192, Cert.KernelIdeal.Blocks.aArr m c (ix2 r j) * Cert.KernelIdeal.Blocks.xsArr m c (ix2 j d))
      * Cert.KernelIdeal.Blocks.sArr m c (ix2 r (0 : Fin 1))) * Cert.KernelIdeal.Blocks.wArr m c (ix2 d h)) = _
  simp only [ea, ex, es, ew, zero_add]

/-- At `Ideal`, from memories agreeing on the arguments, both programs end with the same result array. -/
theorem algebraic : Cert.algebraic_KernelIdeal_ReferenceIdeal := by
  intro m ρ m' ρ' hpre hagree
  refine ⟨fun c => Cert.KernelIdeal.Fold.G m c, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  funext i
  obtain ⟨r, h, rfl⟩ : ∃ (r : Fin 8192) (h : Fin 256), i = ix2 r h := ⟨i 0, i 1, eq_ix2 i⟩
  rw [Cert.ReferenceIdeal.RefValue.ref_apply]
  show _ = Cert.KernelIdeal.Fold.G m c (ix2 r h)
  rw [kernel_entry m c r h, ← Cert.AdjAgree.adjK_eq_adj0]
  show outOf _ _ r h = outOf _ _ r h
  unfold outOf
  refine Finset.sum_congr rfl fun d _ => ?_
  rw [aggKer_eq_aggRef _ _ (Cert.KernelIdeal.HostVal.adjK_mem _) (fun j d => Cert.PreReal.x_real _ _ _ (hpre c) j d)]

end Cert.Proof.GcnClaims

end
-- ==== Proof.lean ====
/-
  The graph-convolution layer `out = D^(-1/2) (A + I) D^(-1/2) · x · Wᵀ` over a dense 0/1 adjacency built from an edge list:
  a tiled kernel (the rows of `x` scaled first, `(A + I)` multiplied tile by tile into an accumulator, the rows scaled
  again and multiplied by `Wᵀ` at the last tile) against the formula evaluated in one piece. The claims are proved in
  Proof/Claims.lean; here they are assembled.
-/
import proofs.«130447_j9328668967304_1_alg».proof.Defs
import proofs.«130447_j9328668967304_1_alg».proof.Proof.Gen.Kernel
import proofs.«130447_j9328668967304_1_alg».proof.Proof.Gen.Kernel.Skeleton
import proofs.«130447_j9328668967304_1_alg».proof.Proof.Gen.Kernel.Launch
import proofs.«130447_j9328668967304_1_alg».proof.Proof.Gen.Kernel.Points
import proofs.«130447_j9328668967304_1_alg».proof.Proof.Gen.Kernel.Frame
import proofs.«130447_j9328668967304_1_alg».proof.Proof.Gen.KernelIdeal
import proofs.«130447_j9328668967304_1_alg».proof.Proof.Gen.KernelIdeal.Skeleton
import proofs.«130447_j9328668967304_1_alg».proof.Proof.Gen.KernelIdeal.Launch
import proofs.«130447_j9328668967304_1_alg».proof.Proof.Gen.KernelIdeal.Points
import proofs.«130447_j9328668967304_1_alg».proof.Proof.Gen.KernelIdeal.Frame
import proofs.«130447_j9328668967304_1_alg».proof.Proof.Gen.KernelIdeal.Value
import proofs.«130447_j9328668967304_1_alg».proof.Proof.Gen.ReferenceIdeal.Run
import proofs.«130447_j9328668967304_1_alg».proof.Proof.Gen.ReferenceIdeal.Read
import proofs.«130447_j9328668967304_1_alg».proof.Proof.Gen.ReferenceIdeal
import proofs.«130447_j9328668967304_1_alg».proof.Proof.Gen.Pre_finite_inputs
import proofs.«130447_j9328668967304_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
